-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S32x4096x512 : Shape := ⟨3, ![32, 4096, 512]⟩
abbrev S512x512 : Shape := ⟨2, ![512, 512]⟩
abbrev S32 : Shape := ⟨1, ![32]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S32x4096x512 : S_.BroadcastsInDim S32x4096x512 (![] : Fin 0 → Fin S32x4096x512.rank)
  reducesTo_S32x4096x512_S_d0_1_2 : S32x4096x512.ReducesTo [0, 1, 2] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S32x512 .f32) (main_arg1 : FVec F S32x4096x512 .f32) (main_arg2 : FVec F S512x512 .f32) (main_arg3 : FVec F S512x512 .f32) (main_arg4 : FVec F S512x512 .f32) (main_arg5 : IVec S32 32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S32x4096x512 .f32 := Host.absf main_arg1
  let main_cst_0 : FVec F S_ .f32 := constant S_ .f32 0x7F800000#32
  let main_v5 : FVec F S32x4096x512 .f32 := broadcastInDim S32x4096x512 ![] bcast_S_S32x4096x512 main_cst_0
  let main_v6 : IVec S32x4096x512 1 := cmpf .olt main_v4 main_v5
  let main_c_1 : IVec S_ 1 := constantI S_ 1 1#1
  let main_v7 : IVec S_ 1 := (fun x v => Host.reduce IntOp.andi x v reducesTo_S32x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S32x512 : Shape := ⟨2, ![32, 512]⟩
abbrev S32x4096x512 : Shape := ⟨3, ![32, 4096, 512]⟩
abbrev S512x512 : Shape := ⟨2, ![512, 512]⟩
abbrev S32 : Shape := ⟨1, ![32]⟩
abbrev S32x1x512 : Shape := ⟨3, ![32, 1, 512]⟩
abbrev S32x1x4096 : Shape := ⟨3, ![32, 1, 4096]⟩
abbrev S1x1x512 : Shape := ⟨3, ![1, 1, 512]⟩
abbrev S1x4096x512 : Shape := ⟨3, ![1, 4096, 512]⟩
abbrev S1x1x4096 : Shape := ⟨3, ![1, 1, 4096]⟩
abbrev S4096x512 : Shape := ⟨2, ![4096, 512]⟩
abbrev S1x512 : Shape := ⟨2, ![1, 512]⟩
abbrev S1x4096 : Shape := ⟨2, ![1, 4096]⟩
abbrev S1 : Shape := ⟨1, ![1]⟩
abbrev S1x1 : Shape := ⟨2, ![1, 1]⟩
abbrev S32x4096 : Shape := ⟨2, ![32, 4096]⟩

abbrev nBuf : Space → Nat
  | .hbm => 10
  | .vmem => 11
  | .smem => 1
  | _ => 0

abbrev bufTy : (tb : Table) → Fin (tcTables nBuf tb) → BufTy
  | .hbm, ⟨0, _⟩ => ⟨S32x512, .f32⟩
  | .hbm, ⟨1, _⟩ => ⟨S32x4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S32x1x512, .f32⟩
  | .hbm, ⟨6, _⟩ => ⟨S32x1x512, .f32⟩
  | .hbm, ⟨7, _⟩ => ⟨S32x1x4096, .f32⟩
  | .hbm, ⟨8, _⟩ => ⟨S32x512, .f32⟩
  | .hbm, ⟨9, _⟩ => ⟨S32x4096, .f32⟩
  | .local _ .vmem, ⟨0, _⟩ => ⟨S1x1x512, .f32⟩
  | .local _ .vmem, ⟨1, _⟩ => ⟨S1x1x512, .f32⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x1x512, .f32⟩
  | .local _ .vmem, ⟨8, _⟩ => ⟨S1x1x512, .f32⟩
  | .local _ .vmem, ⟨9, _⟩ => ⟨S1x1x4096, .f32⟩
  | .local _ .vmem, ⟨10, _⟩ => ⟨S1x1x4096, .f32⟩
  | .local _ .smem, ⟨0, _⟩ => ⟨S32, .i32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v15 : Index := Scalar.indexCast arg0
  ![v15.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x512_S32x1x512 : S32x512.ShapeCasts S32x1x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  numel1_S1 : S1.numel = 1
  iota_S1x4096_d1_w32 : S1x4096.Iotas .tc 32 [1]
  reduces_S1x4096_S1 : S1x4096.Reduces [1] S1
  shapeCasts_S1_S1x1 : S1.ShapeCasts S1x1
  broadcasts_S1x1_S1x4096 : S1x1.Broadcasts S1x4096
  shapeCasts_S1x512_S1x1x512 : S1x512.ShapeCasts S1x1x512
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S32x1x512_S32x512 : S32x1x512.ShapeCasts S32x512
  shapeCasts_S32x1x4096_S32x4096 : S32x1x4096.ShapeCasts S32x4096
  dot_S1x512_S512x512_S1x512_1_1_0_0_n_n_wf : DotDims.WF S1x512 S512x512 S1x512 [1] [1] [0] [0] [] []
  dot_S1x512_S512x512_S1x512_1_0_0_1_n_n_wf : DotDims.WF S1x512 S512x512 S1x512 [1] [0] [0] [1] [] []
  dot_S1x512_S4096x512_S1x4096_1_1_0_0_n_n_wf : DotDims.WF S1x512 S4096x512 S1x4096 [1] [1] [0] [0] [] []
  dot_S4096x512_S512x512_S4096x512_1_1_0_0_n_n_wf : DotDims.WF S4096x512 S512x512 S4096x512 [1] [1] [0] [0] [] []
  dot_S1x4096_S4096x512_S1x512_1_0_0_1_n_n_wf : DotDims.WF S1x4096 S4096x512 S1x512 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S32x1x512.size a
  hwx0_0 : ∀ i : grid0.Coords, EltTy.bits .f32 = 32 ∨ (Rect.block (s := S32x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S32x4096x512.size a
  hwx0_1 : ∀ i : grid0.Coords, EltTy.bits .f32 = 32 ∨ (Rect.block (s := S32x4096x512) S1x4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x512.size a
  hwx0_5 : ∀ i : grid0.Coords, EltTy.bits .f32 = 32 ∨ (Rect.block (s := S32x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x4096.size a ≤ S32x1x4096.size a
  hwx0_6 : ∀ i : grid0.Coords, EltTy.bits .f32 = 32 ∨ (Rect.block (s := S32x1x4096) S1x1x4096.size (cc0_transform_6 i) (hinb0_6 i)).WholeWords (EltTy.packing .f32)

variable [Facts₀]

def dot_S1x512_S512x512_S1x512_1_1_0_0_n_n : DotDims S1x512 S512x512 S1x512 where
  lhsContracting := [1]
  rhsContracting := [1]
  lhsNonContracting := [0]
  rhsNonContracting := [0]
  lhsBatch := []
  rhsBatch := []
  wf := dot_S1x512_S512x512_S1x512_1_1_0_0_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S4096x512_S1x4096_1_1_0_0_n_n : DotDims S1x512 S4096x512 S1x4096 where
  lhsContracting := [1]
  rhsContracting := [1]
  lhsNonContracting := [0]
  rhsNonContracting := [0]
  lhsBatch := []
  rhsBatch := []
  wf := dot_S1x512_S4096x512_S1x4096_1_1_0_0_n_n_wf
def dot_S4096x512_S512x512_S4096x512_1_1_0_0_n_n : DotDims S4096x512 S512x512 S4096x512 where
  lhsContracting := [1]
  rhsContracting := [1]
  lhsNonContracting := [0]
  rhsNonContracting := [0]
  lhsBatch := []
  rhsBatch := []
  wf := dot_S4096x512_S512x512_S4096x512_1_1_0_0_n_n_wf
def dot_S1x4096_S4096x512_S1x512_1_0_0_1_n_n : DotDims S1x4096 S4096x512 S1x512 where
  lhsContracting := [1]
  rhsContracting := [0]
  lhsNonContracting := [0]
  rhsNonContracting := [1]
  lhsBatch := []
  rhsBatch := []
  wf := dot_S1x4096_S4096x512_S1x512_1_0_0_1_n_n_wf

abbrev spec0_0 : Pipeline.WinSpec sig grid0.rank :=
  Pipeline.WinSpec.ofSpec (Memref.whole main_v0) S1x1x512.size reads0_0 false false 2 stage0_0 sem0_0 nbuf0_0 hstage0_0

abbrev spec0_1 : Pipeline.WinSpec sig grid0.rank :=
  Pipeline.WinSpec.ofSpec (Memref.whole main_arg1) S1x4096x512.size reads0_1 false false 2 stage0_1 sem0_1 nbuf0_1 hstage0_1

abbrev spec0_2 : Pipeline.WinSpec sig grid0.rank :=
  Pipeline.WinSpec.ofSpec (Memref.whole main_arg2) S512x512.size reads0_2 false true 1 stage0_2 sem0_2 nbuf0_2 hstage0_2

abbrev spec0_3 : Pipeline.WinSpec sig grid0.rank :=
  Pipeline.WinSpec.ofSpec (Memref.whole main_arg3) S512x512.size reads0_3 false true 1 stage0_3 sem0_3 nbuf0_3 hstage0_3

abbrev spec0_4 : Pipeline.WinSpec sig grid0.rank :=
  Pipeline.WinSpec.ofSpec (Memref.whole main_arg4) S512x512.size reads0_4 false true 1 stage0_4 sem0_4 nbuf0_4 hstage0_4

abbrev spec0_5 : Pipeline.WinSpec sig grid0.rank :=
  Pipeline.WinSpec.ofSpec (Memref.whole main_v1_0) S1x1x512.size reads0_5 true false 2 stage0_5 sem0_5 nbuf0_5 hstage0_5

abbrev spec0_6 : Pipeline.WinSpec sig grid0.rank :=
  Pipeline.WinSpec.ofSpec (Memref.whole main_v1_1) S1x1x4096.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S32x512 : Shape := ⟨2, ![32, 512]⟩
abbrev S32x4096x512 : Shape := ⟨3, ![32, 4096, 512]⟩
abbrev S512x512 : Shape := ⟨2, ![512, 512]⟩
abbrev S32 : Shape := ⟨1, ![32]⟩
abbrev S32x1x512 : Shape := ⟨3, ![32, 1, 512]⟩
abbrev S_ : Shape := ⟨0, ![]⟩
abbrev S32x1x4096 : Shape := ⟨3, ![32, 1, 4096]⟩
abbrev S4096 : Shape := ⟨1, ![4096]⟩
abbrev S1x1x4096 : Shape := ⟨3, ![1, 1, 4096]⟩
abbrev S32x1x1 : Shape := ⟨3, ![32, 1, 1]⟩
abbrev S32x1 : Shape := ⟨2, ![32, 1]⟩
abbrev S32x4096 : Shape := ⟨2, ![32, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S32x4096x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S32, .i32⟩
  | .hbm, ⟨6, _⟩ => ⟨S512x512, .f32⟩
  | .hbm, ⟨7, _⟩ => ⟨S32x512, .f32⟩
  | .hbm, ⟨8, _⟩ => ⟨S32x1x512, .f32⟩
  | .hbm, ⟨9, _⟩ => ⟨S32x4096x512, .f32⟩
  | .hbm, ⟨10, _⟩ => ⟨S32x4096x512, .f32⟩
  | .hbm, ⟨11, _⟩ => ⟨S_, .f32⟩
  | .hbm, ⟨12, _⟩ => ⟨S32x4096x512, .f32⟩
  | .hbm, ⟨13, _⟩ => ⟨S32x4096x512, .f32⟩
  | .hbm, ⟨14, _⟩ => ⟨S32x1x4096, .f32⟩
  | .hbm, ⟨15, _⟩ => ⟨S4096, .i32⟩
  | .hbm, ⟨16, _⟩ => ⟨S1x1x4096, .i32⟩
  | .hbm, ⟨17, _⟩ => ⟨S32x1x1, .i32⟩
  | .hbm, ⟨18, _⟩ => ⟨S32x1x4096, .i32⟩
  | .hbm, ⟨19, _⟩ => ⟨S32x1x4096, .i32⟩
  | .hbm, ⟨20, _⟩ => ⟨S32x1x4096, .i1⟩
  | .hbm, ⟨21, _⟩ => ⟨S32x1x4096, .f32⟩
  | .hbm, ⟨22, _⟩ => ⟨S_, .f32⟩
  | .hbm, ⟨23, _⟩ => ⟨S32x1x4096, .f32⟩
  | .hbm, ⟨24, _⟩ => ⟨S32x1x4096, .f32⟩
  | .hbm, ⟨25, _⟩ => ⟨S_, .f32⟩
  | .hbm, ⟨26, _⟩ => ⟨S32x1, .f32⟩
  | .hbm, ⟨27, _⟩ => ⟨S_, .f32⟩
  | .hbm, ⟨28, _⟩ => ⟨S32x1, .f32⟩
  | .hbm, ⟨29, _⟩ => ⟨S32x1, .f32⟩
  | .hbm, ⟨30, _⟩ => ⟨S32x1x1, .f32⟩
  | .hbm, ⟨31, _⟩ => ⟨S32x1x4096, .f32⟩
  | .hbm, ⟨32, _⟩ => ⟨S32x1x4096, .f32⟩
  | .hbm, ⟨33, _⟩ => ⟨S32x1x4096, .f32⟩
  | .hbm, ⟨34, _⟩ => ⟨S_, .f32⟩
  | .hbm, ⟨35, _⟩ => ⟨S32x1, .f32⟩
  | .hbm, ⟨36, _⟩ => ⟨S32x1x1, .f32⟩
  | .hbm, ⟨37, _⟩ => ⟨S32x1x4096, .f32⟩
  | .hbm, ⟨38, _⟩ => ⟨S32x1x4096, .f32⟩
  | .hbm, ⟨39, _⟩ => ⟨S32x1x4096, .f32⟩
  | .hbm, ⟨40, _⟩ => ⟨S_, .f32⟩
  | .hbm, ⟨41, _⟩ => ⟨S32x1, .f32⟩
  | .hbm, ⟨42, _⟩ => ⟨S32x1x1, .f32⟩
  | .hbm, ⟨43, _⟩ => ⟨S32x1x4096, .f32⟩
  | .hbm, ⟨44, _⟩ => ⟨S32x1x4096, .f32⟩
  | .hbm, ⟨45, _⟩ => ⟨S32x1x512, .f32⟩
  | .hbm, ⟨46, _⟩ => ⟨S32x1x512, .f32⟩
  | .hbm, ⟨47, _⟩ => ⟨S32x512, .f32⟩
  | .hbm, ⟨48, _⟩ => ⟨S32x4096, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S512x512_S512x512_1_0 : S512x512.Transposes [1, 0] S512x512
  bcast_S32x512_S32x1x512_0_2 : S32x512.BroadcastsInDim S32x1x512 (![0, 2] : Fin 2 → Fin S32x1x512.rank)
  bcast_S_S32x4096x512 : S_.BroadcastsInDim S32x4096x512 (![] : Fin 0 → Fin S32x4096x512.rank)
  bcast_S4096_S1x1x4096_2 : S4096.BroadcastsInDim S1x1x4096 (![2] : Fin 1 → Fin S1x1x4096.rank)
  bcast_S32_S32x1x1_0 : S32.BroadcastsInDim S32x1x1 (![0] : Fin 1 → Fin S32x1x1.rank)
  bcast_S1x1x4096_S32x1x4096_0_1_2 : S1x1x4096.BroadcastsInDim S32x1x4096 (![0, 1, 2] : Fin 3 → Fin S32x1x4096.rank)
  bcast_S32x1x1_S32x1x4096_0_1_2 : S32x1x1.BroadcastsInDim S32x1x4096 (![0, 1, 2] : Fin 3 → Fin S32x1x4096.rank)
  bcast_S_S32x1x4096 : S_.BroadcastsInDim S32x1x4096 (![] : Fin 0 → Fin S32x1x4096.rank)
  reducesTo_S32x1x4096_S32x1_d2 : S32x1x4096.ReducesTo [2] S32x1
  h_S_ : 0 < S_.numel
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  shapeCasts_S32x1x512_S32x512 : S32x1x512.ShapeCasts S32x512
  shapeCasts_S32x1x4096_S32x4096 : S32x1x4096.ShapeCasts S32x4096
  dot_S32x512_S512x512_S32x512_1_0_0_1_n_n_wf : DotDims.WF S32x512 S512x512 S32x512 [1] [0] [0] [1] [] []
  dot_S32x4096x512_S512x512_S32x4096x512_2_1_01_0_n_n_wf : DotDims.WF S32x4096x512 S512x512 S32x4096x512 [2] [1] [0, 1] [0] [] []
  dot_S32x1x512_S32x4096x512_S32x1x4096_2_2_1_1_0_0_wf : DotDims.WF S32x1x512 S32x4096x512 S32x1x4096 [2] [2] [1] [1] [0] [0]
  dot_S32x1x4096_S32x4096x512_S32x1x512_2_1_1_2_0_0_wf : DotDims.WF S32x1x4096 S32x4096x512 S32x1x512 [2] [1] [1] [2] [0] [0]

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf
def dot_S32x1x512_S32x4096x512_S32x1x4096_2_2_1_1_0_0 : DotDims S32x1x512 S32x4096x512 S32x1x4096 where
  lhsContracting := [2]
  rhsContracting := [2]
  lhsNonContracting := [1]
  rhsNonContracting := [1]
  lhsBatch := [0]
  rhsBatch := [0]
  wf := dot_S32x1x512_S32x4096x512_S32x1x4096_2_2_1_1_0_0_wf
def dot_S32x1x4096_S32x4096x512_S32x1x512_2_1_1_2_0_0 : DotDims S32x1x4096 S32x4096x512 S32x1x512 where
  lhsContracting := [2]
  rhsContracting := [1]
  lhsNonContracting := [1]
  rhsNonContracting := [2]
  lhsBatch := [0]
  rhsBatch := [0]
  wf := dot_S32x1x4096_S32x4096x512_S32x1x512_2_1_1_2_0_0_wf

class Facts : Prop extends Facts₀ where

variable [Facts]
-- ==== Proof.Spec.lean ====
/-
  One batch row of masked region attention, as both programs compute it over the extended reals.

  A row has a query vector `sq` (512 numbers), 4096 regions of 512 numbers each, three 512 × 512 weights stored
  [out][in], and a length word `s`; lane `r` counts when `r < s` as signed 32-bit words.
    query q[h]   = Σ_k sq[k] · Wq[h][k]
    value v[r][h] = max(Σ_d rg[r][d] · Wv[h][d], 0)
    result[h]    = Σ_r score[r] · v[r][h] + q[h]
  The two programs differ only in how they reach `score`:
  * the kernel contracts the query with Wk first (t[d] = Σ_h q[h]·Wk[h][d], dist[r] = Σ_d t[d]·rg[r][d]), fills the
    lanes that do not count with −∞ BEFORE the softmax, and normalises once: score = exp(l − max l) / Σ exp(l − max l);
  * the reference projects the regions first (dist[r] = Σ_h q[h]·Σ_d rg[r][d]·Wk[h][d]), takes the softmax over ALL
    lanes, multiplies by the 0/1 mask and divides by the masked sum.
  Both divide the logits by the same f32 word (the one nearest √512). `Algebra.lean` proves the two scores equal when
  the row's numbers are real.
-/
import Idealize.ShloMosaic.PureOps.Ideal
import Idealize.ShloMosaic.Lib.ValueIdx

noncomputable section

namespace Cert.RowAttn

open Idealize.ShloMosaic
open scoped BigOperators

/-- The divisor of the logits: the f32 word nearest √512, as the real it denotes. -/
abbrev scale : EReal := Ideal.ofBits .f32 0x41B504F3#32

/-- Whether lane `r` counts under the length word `s`: `r < s`, both signed 32-bit words; a one-bit word. -/
abbrev lane (s : BitVec 32) (r : Fin 4096) : BitVec 1 := IntOp.cmpi .slt (BitVec.ofNat 32 r.val) s

/-- A vector of 512 numbers. -/
abbrev Row : Type := Fin 512 → EReal
/-- A weight, indexed [out][in]. -/
abbrev Mat : Type := Fin 512 → Fin 512 → EReal
/-- One batch row's regions, indexed [region][feature]. -/
abbrev Reg : Type := Fin 4096 → Fin 512 → EReal
/-- One number per region. -/
abbrev Lanes : Type := Fin 4096 → EReal

/-- q[h] = Σ_k sq[k] · Wq[h][k]. -/
def query (sq : Row) (Wq : Mat) : Row := fun h => ∑ k : Fin 512, sq k * Wq h k

/-- v[r][h] = max(Σ_d rg[r][d] · Wv[h][d], 0). -/
def value (rg : Reg) (Wv : Mat) : Fin 4096 → Fin 512 → EReal := fun r h => max (∑ d : Fin 512, rg r d * Wv h d) 0

/-- result[h] = Σ_r score[r] · v[r][h] + q[h]. -/
def attend (sc : Lanes) (v : Fin 4096 → Fin 512 → EReal) (q : Row) : Row := fun h => (∑ r : Fin 4096, sc r * v r h) + q h

/-! ## The kernel's order -/

/-- dist[r] = Σ_d (Σ_h q[h] · Wk[h][d]) · rg[r][d]: the query meets Wk first. -/
def distK (q : Row) (rg : Reg) (Wk : Mat) : Lanes := fun r => ∑ d : Fin 512, (∑ h : Fin 512, q h * Wk h d) * rg r d

/-- The logits with the lanes that do not count filled with −∞. -/
def logitK (x : Lanes) (s : BitVec 32) : Lanes := fun r => Scalar.select (lane s r) (Ideal.div (x r) scale) ⊥

/-- The largest of 4096 numbers, from −∞. -/
def peak (l : Lanes) : EReal := (Finset.univ : Finset (Fin 4096)).fold max ⊥ l

/-- exp(l[r] − max l). -/
def weightK (l : Lanes) : Lanes := fun r => Ideal.exp (l r - peak l)

/-- exp(l[r] − max l) / Σ_k exp(l[k] − max l). -/
def scoreK (l : Lanes) : Lanes := fun r => Ideal.div (weightK l r) (∑ k : Fin 4096, weightK l k)

/-- The kernel's score row. -/
def scoreRowK (sq : Row) (rg : Reg) (Wq Wk : Mat) (s : BitVec 32) : Lanes :=
  scoreK (logitK (distK (query sq Wq) rg Wk) s)

/-- The kernel's result row. -/
def outRowK (sq : Row) (rg : Reg) (Wq Wk Wv : Mat) (s : BitVec 32) : Row :=
  attend (scoreRowK sq rg Wq Wk s) (value rg Wv) (query sq Wq)

/-! ## The reference's order -/

/-- dist[r] = Σ_h q[h] · (Σ_d rg[r][d] · Wk[h][d]): the regions are projected first. -/
def distR (q : Row) (rg : Reg) (Wk : Mat) : Lanes := fun r => ∑ h : Fin 512, q h * (∑ d : Fin 512, rg r d * Wk h d)

/-- The scaled logits, every lane. -/
def logitR (x : Lanes) : Lanes := fun r => Ideal.div (x r) scale

/-- The shift of the reference's softmax: −∞ joined with the largest logit. -/
def shiftR (x : Lanes) : EReal := max ⊥ (peak (logitR x))

/-- The softmax over all 4096 lanes. -/
def softR (x : Lanes) : Lanes :=
  fun r => Ideal.div (Ideal.exp (logitR x r - shiftR x)) (0 + ∑ k : Fin 4096, Ideal.exp (logitR x k - shiftR x))

/-- The softmax times the 0/1 mask. -/
def maskedR (x : Lanes) (s : BitVec 32) : Lanes := fun r => softR x r * (((lane s r).toNat : ℝ) : EReal)

/-- The masked softmax over its own sum. -/
def scoreR (x : Lanes) (s : BitVec 32) : Lanes := fun r => Ideal.div (maskedR x s r) (0 + ∑ k : Fin 4096, maskedR x s k)

/-- The reference's score row. -/
def scoreRowR (sq : Row) (rg : Reg) (Wq Wk : Mat) (s : BitVec 32) : Lanes :=
  scoreR (distR (query sq Wq) rg Wk) s

/-- The reference's result row. -/
def outRowR (sq : Row) (rg : Reg) (Wq Wk Wv : Mat) (s : BitVec 32) : Row :=
  attend (scoreRowR sq rg Wq Wk s) (value rg Wv) (query sq Wq)

/-! ## The whole arrays: each batch row cut out of the argument arrays -/

section Arrays

open Idealize.ShloMosaic.ValueIdx

/-- Row `b` of the [32, 512] query input. -/
abbrev seqRow (x0 : (⟨2, ![32, 512]⟩ : Shape).Idx → EReal) (b : Fin 32) : Row := fun k => x0 (ix2 b k)
/-- Row `b` of the [32, 4096, 512] regions. -/
abbrev regRow (x1 : (⟨3, ![32, 4096, 512]⟩ : Shape).Idx → EReal) (b : Fin 32) : Reg := fun r d => x1 (ix3 b r d)
/-- A [512, 512] weight by its two coordinates. -/
abbrev mat (w : (⟨2, ![512, 512]⟩ : Shape).Idx → EReal) : Mat := fun h k => w (ix2 h k)
/-- Row `b`'s length word. -/
abbrev lenOf (x5 : (⟨1, ![32]⟩ : Shape).Idx → BitVec 32) (b : Fin 32) : BitVec 32 := x5 (ix1 b)

/-- The [32, 4096] scores, in the kernel's order. -/
def scoreArrK (x0 : (⟨2, ![32, 512]⟩ : Shape).Idx → EReal) (x1 : (⟨3, ![32, 4096, 512]⟩ : Shape).Idx → EReal)
    (x2 x3 : (⟨2, ![512, 512]⟩ : Shape).Idx → EReal) (x5 : (⟨1, ![32]⟩ : Shape).Idx → BitVec 32) :
    (⟨2, ![32, 4096]⟩ : Shape).Idx → EReal :=
  fun i => scoreRowK (seqRow x0 (i 0)) (regRow x1 (i 0)) (mat x2) (mat x3) (lenOf x5 (i 0)) (i 1)

/-- The [32, 512] results, in the kernel's order. -/
def outArrK (x0 : (⟨2, ![32, 512]⟩ : Shape).Idx → EReal) (x1 : (⟨3, ![32, 4096, 512]⟩ : Shape).Idx → EReal)
    (x2 x3 x4 : (⟨2, ![512, 512]⟩ : Shape).Idx → EReal) (x5 : (⟨1, ![32]⟩ : Shape).Idx → BitVec 32) :
    (⟨2, ![32, 512]⟩ : Shape).Idx → EReal :=
  fun i => outRowK (seqRow x0 (i 0)) (regRow x1 (i 0)) (mat x2) (mat x3) (mat x4) (lenOf x5 (i 0)) (i 1)

/-- The [32, 4096] scores, in the reference's order. -/
def scoreArrR (x0 : (⟨2, ![32, 512]⟩ : Shape).Idx → EReal) (x1 : (⟨3, ![32, 4096, 512]⟩ : Shape).Idx → EReal)
    (x2 x3 : (⟨2, ![512, 512]⟩ : Shape).Idx → EReal) (x5 : (⟨1, ![32]⟩ : Shape).Idx → BitVec 32) :
    (⟨2, ![32, 4096]⟩ : Shape).Idx → EReal :=
  fun i => scoreRowR (seqRow x0 (i 0)) (regRow x1 (i 0)) (mat x2) (mat x3) (lenOf x5 (i 0)) (i 1)

/-- The [32, 512] results, in the reference's order. -/
def outArrR (x0 : (⟨2, ![32, 512]⟩ : Shape).Idx → EReal) (x1 : (⟨3, ![32, 4096, 512]⟩ : Shape).Idx → EReal)
    (x2 x3 x4 : (⟨2, ![512, 512]⟩ : Shape).Idx → EReal) (x5 : (⟨1, ![32]⟩ : Shape).Idx → BitVec 32) :
    (⟨2, ![32, 512]⟩ : Shape).Idx → EReal :=
  fun i => outRowR (seqRow x0 (i 0)) (regRow x1 (i 0)) (mat x2) (mat x3) (mat x4) (lenOf x5 (i 0)) (i 1)

end Arrays

end Cert.RowAttn

end
-- ==== Proof.Algebra.lean ====
/-
  The two orders give the same scores when the row's numbers are real.

  With real inputs both contraction orders are one real double sum x[r] (sums and products of reals stay
  real, and the two nestings differ by exchanging the sums). The divisor is the real 11863283 / 2¹⁹, not
  zero, so every scaled logit is a real y[r]. Write χ for the 0/1 indicator of the lanes that count.
  * Kernel: off the counted lanes the logit is −∞, −∞ − c = −∞ and exp(−∞) = 0; if some lane counts
    the peak is a real m and exp(y − m) = exp(−m) · exp y. So weight[r] = exp(−m) · (χ[r] · exp y[r]).
  * Reference: the shift is a real M and exp(y − M) = exp(−M) · exp y, so the softmax is exp y[r] / E with
    E = Σ exp y > 0, and the masked softmax is (1/E) · (χ[r] · exp y[r]).
  A common positive factor cancels from a quotient, the corner 0 / 0 = −∞ included, so both scores are
  χ[r] · exp y[r] over Σ_k χ[k] · exp y[k].
-/
import proofs.«431180_j86492051406968_3_alg».proof.Proof.Spec

noncomputable section

namespace Cert.RowAttn

open Idealize.ShloMosaic
open scoped BigOperators

namespace Algebra

/-- A finite sum of reals, read in the extended reals, is the sum of the readings. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The divisor is the real 11863283 / 2¹⁹. -/
theorem scale_eq : scale = ((11863283 / 524288 : ℝ) : EReal) := by
  simp [scale, Ideal.ofBits, Ideal.ieee, -EReal.coe_mul]; norm_num

/-- A one-bit word read as a real is 1 when the bit is set and 0 otherwise. -/
theorem bit_cast (b : BitVec 1) : ((b.toNat : ℝ)) = if b = 1 then 1 else 0 := by
  rcases BitVec.eq_zero_or_eq_one b with h | h <;> subst h <;> simp

/-- Scaling numerator and denominator by the same positive real does not change the quotient, the
    corner 0 / 0 included. -/
theorem div_scale {c : ℝ} (hc : 0 < c) (a A : ℝ) :
    Ideal.div ((c * a : ℝ) : EReal) ((c * A : ℝ) : EReal) = Ideal.div (a : EReal) (A : EReal) := by
  by_cases hA : A = 0
  · subst hA
    have h0 : ((c * 0 : ℝ) : EReal) = 0 := by rw [mul_zero]; rfl
    have h1 : ((0 : ℝ) : EReal) = 0 := rfl
    rw [h0, h1]
    unfold Ideal.div
    rw [if_pos rfl, if_pos rfl]
    have : (0 : EReal) < ((c * a : ℝ) : EReal) ↔ (0 : EReal) < (a : EReal) := by
      rw [EReal.coe_pos, EReal.coe_pos]
      constructor
      · intro h; exact (mul_pos_iff_of_pos_left hc).mp h
      · intro h; exact mul_pos hc h
    by_cases h : (0 : EReal) < (a : EReal)
    · rw [if_pos h, if_pos (this.mpr h)]
    · rw [if_neg h, if_neg (fun h' => h (this.mp h'))]
  · have hcA : c * A ≠ 0 := mul_ne_zero hc.ne' hA
    rw [Ideal.div_coe hcA, Ideal.div_coe hA, ← EReal.coe_mul, ← EReal.coe_mul]
    congr 1
    field_simp

/-- Contracting with the weight first or with the regions first is the same double sum. -/
theorem contract_comm {ι κ : Type} [Fintype ι] [Fintype κ] (q : ι → ℝ) (w : ι → κ → ℝ) (g : κ → ℝ) :
    ∑ h, q h * ∑ d, g d * w h d = ∑ d, (∑ h, q h * w h d) * g d := by
  simp only [Finset.sum_mul, Finset.mul_sum]
  rw [Finset.sum_comm]
  refine Finset.sum_congr rfl fun d _ => Finset.sum_congr rfl fun h _ => ?_
  ring

/-- With real inputs both contraction orders give the same real number on every lane. -/
theorem dist_real (sq : Row) (rg : Reg) (Wq Wk : Mat)
    (hsq : ∀ k, ∃ x : ℝ, sq k = (x : EReal)) (hrg : ∀ r d, ∃ x : ℝ, rg r d = (x : EReal))
    (hWq : ∀ h k, ∃ x : ℝ, Wq h k = (x : EReal)) (hWk : ∀ h d, ∃ x : ℝ, Wk h d = (x : EReal)) :
    ∃ x : Fin 4096 → ℝ, distK (query sq Wq) rg Wk = (fun r => (x r : EReal)) ∧
      distR (query sq Wq) rg Wk = fun r => (x r : EReal) := by
  choose a ha using hsq
  choose g hg using hrg
  choose p hp using hWq
  choose w hw using hWk
  have hq : ∀ h, query sq Wq h = ((∑ k, a k * p h k : ℝ) : EReal) := by
    intro h
    simp only [query, ha, hp, ← EReal.coe_mul, ← coe_sum]
  refine ⟨fun r => ∑ d, (∑ h, (∑ k, a k * p h k) * w h d) * g r d, ?_, ?_⟩
  · funext r
    simp only [distK, hq, hw, hg, ← EReal.coe_mul, ← coe_sum]
  · funext r
    simp only [distR, hq, hw, hg, ← EReal.coe_mul, ← coe_sum]
    congr 1
    exact contract_comm (fun h => ∑ k, a k * p h k) w (g r)

/-- A real over the divisor is the real times the divisor's reciprocal. -/
theorem logit_real (x : Fin 4096 → ℝ) (r : Fin 4096) :
    Ideal.div (x r : EReal) scale = ((x r * (1 / (11863283 / 524288)) : ℝ) : EReal) := by
  rw [scale_eq, Ideal.div_coe (by norm_num), ← EReal.coe_mul]

/-- The largest of the lanes is a real as soon as one lane is not −∞ and none is +∞. -/
theorem peak_real {l : Lanes} (h1 : ∃ r, l r ≠ ⊥) (h2 : ∀ r, l r ≠ ⊤) : ∃ m : ℝ, peak l = (m : EReal) := by
  obtain ⟨r0, hr0⟩ := h1
  have hbot : peak l ≠ ⊥ := by
    have h : l r0 ≤ peak l := by
      unfold peak
      rw [Finset.le_fold_max]
      exact Or.inr ⟨r0, Finset.mem_univ _, le_rfl⟩
    intro hp
    rw [hp, le_bot_iff] at h
    exact hr0 h
  have htop : peak l ≠ ⊤ := by
    have h : peak l < ⊤ := by
      unfold peak
      rw [Finset.fold_max_lt]
      exact ⟨bot_lt_top, fun r _ => lt_top_iff_ne_top.mpr (h2 r)⟩
    exact h.ne
  exact ⟨(peak l).toReal, (EReal.coe_toReal htop hbot).symm⟩

/-- The kernel's logits when the scaled distances are the reals `y` and `b` says which lanes count. -/
def lK (y : Fin 4096 → ℝ) (b : Fin 4096 → BitVec 1) : Lanes := fun r => Scalar.select (b r) (y r : EReal) ⊥

/-- The 0/1 indicator of the lanes that count. -/
def ind (b : Fin 4096 → BitVec 1) (r : Fin 4096) : ℝ := if b r = 1 then 1 else 0

theorem lK_on {y : Fin 4096 → ℝ} {b : Fin 4096 → BitVec 1} {r : Fin 4096} (h : b r = 1) :
    lK y b r = (y r : EReal) := by
  unfold lK Scalar.select
  rw [if_pos h]

theorem lK_off {y : Fin 4096 → ℝ} {b : Fin 4096 → BitVec 1} {r : Fin 4096} (h : ¬ b r = 1) :
    lK y b r = ⊥ := by
  unfold lK Scalar.select
  rw [if_neg h]

/-- Every kernel weight is one positive real, the same on all lanes, times the indicator times exp y:
    off the counted lanes −∞ minus anything is −∞ and exp sends it to 0; on them the peak is a real m
    and exp(y − m) = exp(−m) · exp y. -/
theorem weightK_real (y : Fin 4096 → ℝ) (b : Fin 4096 → BitVec 1) :
    ∃ m : ℝ, ∀ r, weightK (lK y b) r = ((Real.exp (-m) * (ind b r * Real.exp (y r)) : ℝ) : EReal) := by
  have hoff : ∀ (m : ℝ) (r : Fin 4096), ¬ b r = 1 →
      weightK (lK y b) r = ((Real.exp (-m) * (ind b r * Real.exp (y r)) : ℝ) : EReal) := by
    intro m r hb
    unfold weightK ind
    rw [lK_off hb, if_neg hb, EReal.bot_sub, Ideal.exp_bot, zero_mul, mul_zero]
    rfl
  by_cases hV : ∃ r0, b r0 = 1
  · obtain ⟨r0, hr0⟩ := hV
    obtain ⟨m, hm⟩ : ∃ m : ℝ, peak (lK y b) = (m : EReal) := by
      refine peak_real ⟨r0, ?_⟩ fun r => ?_
      · rw [lK_on hr0]; exact EReal.coe_ne_bot _
      · by_cases hb : b r = 1
        · rw [lK_on hb]; exact EReal.coe_ne_top _
        · rw [lK_off hb]; exact bot_ne_top
    refine ⟨m, fun r => ?_⟩
    by_cases hb : b r = 1
    · unfold weightK ind
      rw [hm, lK_on hb, if_pos hb, ← EReal.coe_sub, Ideal.exp_coe, one_mul, ← Real.exp_add]
      congr 2
      ring
    · exact hoff m r hb
  · refine ⟨0, fun r => hoff 0 r fun hb => hV ⟨r, hb⟩⟩

/-- The kernel's score: the indicator times exp y over the sum of the same on all lanes. -/
theorem scoreK_real (y : Fin 4096 → ℝ) (b : Fin 4096 → BitVec 1) (r : Fin 4096) :
    scoreK (lK y b) r =
      Ideal.div ((ind b r * Real.exp (y r) : ℝ) : EReal) ((∑ k, ind b k * Real.exp (y k) : ℝ) : EReal) := by
  obtain ⟨m, hm⟩ := weightK_real y b
  unfold scoreK
  simp only [hm]
  rw [← coe_sum, ← Finset.mul_sum]
  exact div_scale (Real.exp_pos _) _ _

/-- The reference's softmax over all lanes: exp y over the (positive) sum of exp y; the shift is a real
    and cancels. -/
theorem softR_real (x : Lanes) (y : Fin 4096 → ℝ) (hl : ∀ r, logitR x r = (y r : EReal)) :
    ∃ E : ℝ, 0 < E ∧ ∀ r, softR x r = ((1 / E * Real.exp (y r) : ℝ) : EReal) := by
  obtain ⟨M, hM⟩ : ∃ M : ℝ, shiftR x = (M : EReal) := by
    obtain ⟨M, hM⟩ : ∃ M : ℝ, peak (logitR x) = (M : EReal) := by
      refine peak_real ⟨⟨0, by norm_num⟩, ?_⟩ fun r => ?_
      · rw [hl]; exact EReal.coe_ne_bot _
      · rw [hl]; exact EReal.coe_ne_top _
    refine ⟨M, ?_⟩
    unfold shiftR
    rw [max_eq_right bot_le, hM]
  have hpos : 0 < ∑ k : Fin 4096, Real.exp (y k) :=
    Finset.sum_pos (fun k _ => Real.exp_pos _) ⟨⟨0, by norm_num⟩, Finset.mem_univ _⟩
  refine ⟨∑ k, Real.exp (y k), hpos, fun r => ?_⟩
  have he : ∀ k, Ideal.exp (logitR x k - shiftR x) = ((Real.exp (-M) * Real.exp (y k) : ℝ) : EReal) := by
    intro k
    rw [hl, hM, ← EReal.coe_sub, Ideal.exp_coe, ← Real.exp_add]
    congr 2
    ring
  unfold softR
  simp only [he]
  rw [zero_add, ← coe_sum, ← Finset.mul_sum, div_scale (Real.exp_pos _), Ideal.div_coe hpos.ne',
    ← EReal.coe_mul]
  congr 1
  ring

/-- The reference's score: the same quotient as the kernel's. -/
theorem scoreR_real (x : Lanes) (s : BitVec 32) (y : Fin 4096 → ℝ) (hl : ∀ r, logitR x r = (y r : EReal))
    (r : Fin 4096) :
    scoreR x s r =
      Ideal.div ((ind (lane s) r * Real.exp (y r) : ℝ) : EReal)
        ((∑ k, ind (lane s) k * Real.exp (y k) : ℝ) : EReal) := by
  obtain ⟨E, hE, hs⟩ := softR_real x y hl
  have hmk : ∀ k, maskedR x s k = ((1 / E * (ind (lane s) k * Real.exp (y k)) : ℝ) : EReal) := by
    intro k
    unfold maskedR ind
    rw [hs, bit_cast, ← EReal.coe_mul]
    congr 1
    ring
  unfold scoreR
  simp only [hmk]
  rw [zero_add, ← coe_sum, ← Finset.mul_sum]
  exact div_scale (one_div_pos.mpr hE) _ _

end Algebra

open Algebra

theorem scoreRow_eq (sq : Row) (rg : Reg) (Wq Wk : Mat) (s : BitVec 32)
    (hsq : ∀ k, ∃ x : ℝ, sq k = (x : EReal)) (hrg : ∀ r d, ∃ x : ℝ, rg r d = (x : EReal))
    (hWq : ∀ h k, ∃ x : ℝ, Wq h k = (x : EReal)) (hWk : ∀ h d, ∃ x : ℝ, Wk h d = (x : EReal)) :
    scoreRowK sq rg Wq Wk s = scoreRowR sq rg Wq Wk s := by
  obtain ⟨x, hK, hR⟩ := dist_real sq rg Wq Wk hsq hrg hWq hWk
  funext r
  unfold scoreRowK scoreRowR
  rw [hK, hR]
  have hlK : logitK (fun r => (x r : EReal)) s
      = lK (fun r => x r * (1 / (11863283 / 524288))) (lane s) := by
    funext k
    unfold logitK lK
    rw [logit_real]
  have hlR : ∀ k, logitR (fun r => (x r : EReal)) k
      = ((x k * (1 / (11863283 / 524288)) : ℝ) : EReal) := fun k => logit_real x k
  rw [hlK, scoreK_real, scoreR_real _ s _ hlR]

theorem outRow_eq (sq : Row) (rg : Reg) (Wq Wk Wv : Mat) (s : BitVec 32)
    (hsq : ∀ k, ∃ x : ℝ, sq k = (x : EReal)) (hrg : ∀ r d, ∃ x : ℝ, rg r d = (x : EReal))
    (hWq : ∀ h k, ∃ x : ℝ, Wq h k = (x : EReal)) (hWk : ∀ h d, ∃ x : ℝ, Wk h d = (x : EReal)) :
    outRowK sq rg Wq Wk Wv s = outRowR sq rg Wq Wk Wv s := by
  unfold outRowK outRowR
  rw [scoreRow_eq sq rg Wq Wk s hsq hrg hWq hWk]

end Cert.RowAttn

end
-- ==== Proof.Finite.lean ====
/-
  The precondition makes every float input real. The precondition is, for each of the five float inputs, the conjunction
  over all entries of |x| < +∞, and the five conjunctions and-ed together. An extended real whose absolute value is
  below +∞ is neither -∞ nor +∞, so it is a real number.
-/
import proofs.«431180_j86492051406968_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

/-- A shape of rank zero has exactly one index: two of them agree at every coordinate because there is no coordinate. -/
instance : Subsingleton S_.Idx := ⟨fun a b => funext fun d => d.elim0⟩

/-- One entry: the word 0x7F800000 is +∞ (all-ones exponent, zero fraction, sign clear); |a| is max a (-a), which is +∞ at
    both infinities, so |a| < +∞ leaves only the real case. -/
theorem real_of_abs_lt_top (a : EReal)
    (h : FloatOps.cmpf (F := Ideal) (φ := .f32) .olt (FloatOps.absf a) (FloatOps.ofBits .f32 0x7F800000#32) = 1#1) :
    ∃ r : ℝ, a = (r : EReal) := by
  have htop : (FloatOps.ofBits (F := Ideal) .f32 0x7F800000#32) = (⊤ : EReal) := by
    show Ideal.ofBits .f32 0x7F800000#32 = ⊤
    simp [Ideal.ofBits, Ideal.ieee]
  rw [htop, Ideal.cmpf_def, Ideal.absf_def] at h
  induction a using EReal.rec with
  | bot => simp [Ideal.cmp] at h
  | coe r => exact ⟨r, rfl⟩
  | top => simp [Ideal.cmp] at h

/-- One input of any shape: if the and of (|x i| < +∞) over all axes is 1, then each conjunct is 1, and each entry is real. -/
theorem real_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi (cmpf .olt (Host.absf x) (broadcastInDim s ![] hb (constant S_ .f32 0x7F800000#32)))
        (constantI S_ 1 1#1) hr hu ValueIdx.ix0 = 1#1) :
    ∀ i, ∃ r : ℝ, x i = (r : EReal) := by
  intro i
  exact real_of_abs_lt_top (x i) (Host.reduce_andi_all _ _ hr hu ValueIdx.ix0 e i)

/-- The whole precondition: its value at the one index is a fourfold and of five such conjunctions; an and of two bits is 1
    exactly when both are, which splits it into the five, one per float input. -/
theorem real_of_pre [Cert.Pre_finite_inputs.Facts] (x0 : FVec Ideal S32x512 .f32) (x1 : FVec Ideal S32x4096x512 .f32)
    (x2 x3 x4 : FVec Ideal S512x512 .f32) (x5 : IVec S32 32)
    (h : Cert.Pre_finite_inputs.fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have h0 := congrFun h ValueIdx.ix0
  dsimp only [fn, fn_part1] at h0
  dsimp only [Idealize.ShloMosaic.andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all _ _ _ x0 e0, real_of_all _ _ _ x1 e1, real_of_all _ _ _ x2 e2, real_of_all _ _ _ x3 e3,
    real_of_all _ _ _ x4 e4⟩

end Cert.Pre_finite_inputs.Finite

end
-- ==== Proof.RefValue.lean ====
/-
  The reference's two results are the specification's reference-order arrays.

  Each stage of the reference is read at an index by coordinates: (b, h) for the query, (b, r, h) for the projected
  regions, (b, 0, r) for everything along the lanes. A contraction is the sum over its one contracted axis, a
  broadcast reads its operand at the kept coordinates, a division is the extended reals' division, the row maximum
  is the fold of max from −∞ over the 4096 lanes, a sum from zero is 0 + Σ. Stage by stage these are the
  specification's query, distR, logitR, shiftR, softR, maskedR, scoreR, value and attend for batch row b; the two
  final reshapes send the flat position b·n + j back to (b, j).
-/
import proofs.«431180_j86492051406968_3_alg».proof.Proof.Gen.ReferenceIdeal.Read
import proofs.«431180_j86492051406968_3_alg».proof.Proof.Spec

noncomputable section

namespace Cert.ReferenceIdeal.RefValue

open Cert.ReferenceIdeal Cert.ReferenceIdeal.Gen Idealize.ShloMosaic Idealize.ShloMosaic.TcCoe Idealize.SL.Sem Cert.RowAttn
open Idealize.ShloMosaic.ValueIdx
open scoped BigOperators

section Stages

variable (x0 : (⟨S32x512, .f32⟩ : BufTy).Contents (Elt Ideal)) (x1 : (⟨S32x4096x512, .f32⟩ : BufTy).Contents (Elt Ideal))
  (x2 x3 x4 : (⟨S512x512, .f32⟩ : BufTy).Contents (Elt Ideal)) (x5 : (⟨S32, .i32⟩ : BufTy).Contents (Elt Ideal))

/-! ## The query: Σ_k sq[k] · Wq[h][k] -/

/-- The first product contracts the query input's row with the transposed weight, and the transposed weight at
    (k, h) is the weight at (h, k): at (b, h) the product is the specification's query of row b. -/
theorem v1_at (b : Fin 32) (h : Fin 512) :
    Read.val_main_v1 (F := Ideal) x0 x2 (ix2 b h) = query (seqRow x0 b) (mat x2) h := by
  rw [Read.val_main_v1_apply]
  unfold query
  refine Finset.sum_congr rfl fun k _ => ?_
  rw [Read.val_main_v0_apply]
  have e1 : Read.lidx_main_v1 (ix2 b h) k = ix2 b k :=
    funext fun a => by match a with | ⟨0, _⟩ => rfl | ⟨1, _⟩ => rfl
  have e2 : Read.idx_main_v0 (Read.ridx_main_v1 (ix2 b h) k) = ix2 h k :=
    funext fun a => by match a with | ⟨0, _⟩ => rfl | ⟨1, _⟩ => rfl
  rw [e1, e2]

/-- The query with a unit middle axis put in reads the same number. -/
theorem v2_at (b : Fin 32) (z : Fin 1) (h : Fin 512) :
    Read.val_main_v2 (F := Ideal) x0 x2 (ix3 b z h) = query (seqRow x0 b) (mat x2) h := by
  rw [Read.val_main_v2_apply]
  have e : Read.idx_main_v2 (ix3 b z h) = ix2 b h :=
    funext fun a => by match a with | ⟨0, _⟩ => rfl | ⟨1, _⟩ => rfl
  rw [e, v1_at]

/-! ## The projected regions and the distances -/

/-- The regions projected by Wk: at (b, r, h) the sum Σ_d rg[r][d] · Wk[h][d]. -/
theorem v3_at (b : Fin 32) (r : Fin 4096) (h : Fin 512) :
    Read.val_main_v3 (F := Ideal) x1 x3 (ix3 b r h) = ∑ d : Fin 512, regRow x1 b r d * mat x3 h d := by
  rw [Read.val_main_v3_apply]
  refine Finset.sum_congr rfl fun d _ => ?_
  have e1 : Read.lidx_main_v3 (ix3 b r h) d = ix3 b r d :=
    funext fun a => by match a with | ⟨0, _⟩ => rfl | ⟨1, _⟩ => rfl | ⟨2, _⟩ => rfl
  have e2 : Read.ridx_main_v3 (ix3 b r h) d = ix2 h d :=
    funext fun a => by match a with | ⟨0, _⟩ => rfl | ⟨1, _⟩ => rfl
  rw [e1, e2]

/-- The distances: the query against the projected regions, summed over the hidden axis. -/
theorem v6_at (b : Fin 32) (z : Fin 1) (r : Fin 4096) :
    Read.val_main_v6 (F := Ideal) x0 x1 x2 x3 (ix3 b z r)
      = distR (query (seqRow x0 b) (mat x2)) (regRow x1 b) (mat x3) r := by
  rw [Read.val_main_v6_apply]
  unfold distR
  refine Finset.sum_congr rfl fun h _ => ?_
  have e1 : Read.lidx_main_v6 (ix3 b z r) h = ix3 b z h :=
    funext fun a => by match a with | ⟨0, _⟩ => rfl | ⟨1, _⟩ => rfl | ⟨2, _⟩ => rfl
  have e2 : Read.ridx_main_v6 (ix3 b z r) h = ix3 b r h :=
    funext fun a => by match a with | ⟨0, _⟩ => rfl | ⟨1, _⟩ => rfl | ⟨2, _⟩ => rfl
  rw [e1, e2, v2_at, v3_at]

/-! ## The logits, their largest, the softmax -/

/-- Row b's distances, in the reference's order. -/
abbrev dist (b : Fin 32) : Lanes := distR (query (seqRow x0 b) (mat x2)) (regRow x1 b) (mat x3)

/-- The pattern of −∞ denotes the bottom of the extended reals. -/
theorem negInf : Ideal.ofBits .f32 0xFF800000#32 = (⊥ : EReal) := by simp [Ideal.ofBits, Ideal.ieee]

/-- The broadcast divisor is the same word everywhere. -/
theorem v14_at (i : S32x1x4096.Idx) : Read.val_main_v14 (F := Ideal) i = scale := by
  rw [Read.val_main_v14_apply, Read.val_main_cst_apply]
  rfl

/-- The scaled logits. -/
theorem v15_at (b : Fin 32) (z : Fin 1) (r : Fin 4096) :
    Read.val_main_v15 (F := Ideal) x0 x1 x2 x3 (ix3 b z r) = logitR (dist x0 x1 x2 x3 b) r := by
  rw [Read.val_main_v15_apply, v6_at, v14_at, Ideal.hostDivf_def]
  rfl

/-- Lane k put back on the dropped last axis of (b, z) is (b, z, k). -/
theorem lift_at (hr : S32x1x4096.Reduces [2] S32x1) (b : Fin 32) (z : Fin 1) (k : Fin (S32x1x4096.size 2)) :
    hr.lift (ix2 b z) k = ix3 b z (⟨k.val, k.isLt⟩ : Fin 4096) := by
  funext c; apply Fin.ext
  fin_cases c <;> rfl

/-- The row maximum: a reduction with a maximum body from −∞ over the lane axis is the fold of max from ⊥ over
    the 4096 scaled logits, the specification's peak. -/
theorem v16_at (b : Fin 32) (z : Fin 1) :
    Read.val_main_v16 (F := Ideal) x0 x1 x2 x3 (ix2 b z) = peak (logitR (dist x0 x1 x2 x3 b)) := by
  have hr : S32x1x4096.Reduces [2] S32x1 := by decide
  unfold Read.val_main_v16
  rw [Host.reduce_eq_fold_single FloatOps.maximumf _ _ reducesTo_S32x1x4096_S32x1_d2 hr h_S_]
  have hf : (Read.val_main_v15 (F := Ideal) x0 x1 x2 x3 ∘ hr.lift (ix2 b z)) = logitR (dist x0 x1 x2 x3 b) :=
    funext fun k => by
      show Read.val_main_v15 (F := Ideal) x0 x1 x2 x3 (hr.lift (ix2 b z) k) = _
      rw [lift_at, v15_at]
      rfl
  have hi : Read.val_main_cst_0 (F := Ideal) (Shape.Idx.first h_S_) = (⊥ : EReal) := by
    rw [Read.val_main_cst_0_apply]; exact negInf
  rw [hf, hi]
  rfl

/-- The softmax's shift: −∞ joined with the row maximum. -/
theorem v18_at (b : Fin 32) (z : Fin 1) :
    Read.val_main_v18 (F := Ideal) x0 x1 x2 x3 (ix2 b z) = shiftR (dist x0 x1 x2 x3 b) := by
  rw [Read.val_main_v18_apply, Read.val_main_v17_apply, Read.val_main_cst_1_apply, v16_at, Ideal.maximumf_def,
    Ideal.ofBits_def, negInf]
  rfl

/-- The shift broadcast back along the lanes. -/
theorem v20_at (b : Fin 32) (z : Fin 1) (r : Fin 4096) :
    Read.val_main_v20 (F := Ideal) x0 x1 x2 x3 (ix3 b z r) = shiftR (dist x0 x1 x2 x3 b) := by
  rw [Read.val_main_v20_apply, Read.val_main_v19_apply]
  have e : Read.idx_main_v19 (Read.idx_main_v20 (ix3 b z r)) = ix2 b (0 : Fin 1) :=
    funext fun a => by match a with | ⟨0, _⟩ => rfl | ⟨1, _⟩ => rfl
  rw [e, v18_at]

/-- exp(l[r] − shift). -/
theorem v22_at (b : Fin 32) (z : Fin 1) (r : Fin 4096) :
    Read.val_main_v22 (F := Ideal) x0 x1 x2 x3 (ix3 b z r)
      = Ideal.exp (logitR (dist x0 x1 x2 x3 b) r - shiftR (dist x0 x1 x2 x3 b)) := by
  rw [Read.val_main_v22_apply, Read.val_main_v21_apply, v15_at, v20_at, Ideal.hostUnary_exp_def, Ideal.subf_def]

/-- The softmax's denominator: zero plus the sum of the 4096 exponentials. -/
theorem v23_at (b : Fin 32) (z : Fin 1) :
    Read.val_main_v23 (F := Ideal) x0 x1 x2 x3 (ix2 b z)
      = 0 + ∑ k : Fin 4096, Ideal.exp (logitR (dist x0 x1 x2 x3 b) k - shiftR (dist x0 x1 x2 x3 b)) := by
  rw [Read.val_main_v23_apply, Read.val_main_cst_2_apply, Ideal.ofBits_def, Ideal.ofBits_zero_f32]
  refine congrArg (0 + ·) (Finset.sum_congr rfl fun k _ => ?_)
  have e : Read.idx_main_v23 (ix2 b z) k = ix3 b z k :=
    funext fun a => by match a with | ⟨0, _⟩ => rfl | ⟨1, _⟩ => rfl | ⟨2, _⟩ => rfl
  rw [e, v22_at]

/-- The softmax over all lanes. -/
theorem v26_at (b : Fin 32) (z : Fin 1) (r : Fin 4096) :
    Read.val_main_v26 (F := Ideal) x0 x1 x2 x3 (ix3 b z r) = softR (dist x0 x1 x2 x3 b) r := by
  rw [Read.val_main_v26_apply, Read.val_main_v25_apply, Read.val_main_v24_apply]
  have e : Read.idx_main_v24 (Read.idx_main_v25 (ix3 b z r)) = ix2 b (0 : Fin 1) :=
    funext fun a => by match a with | ⟨0, _⟩ => rfl | ⟨1, _⟩ => rfl
  rw [e, v22_at, v23_at, Ideal.hostDivf_def]
  rfl

/-! ## The mask, the masked softmax, the score -/

/-- The 0/1 mask: lane r counts when r, as a signed 32-bit word, is below row b's length word; the one-bit answer is
    read as a number. -/
theorem v13_at (b : Fin 32) (z : Fin 1) (r : Fin 4096) :
    Read.val_main_v13 (F := Ideal) x5 (ix3 b z r) = (((lane (lenOf x5 b) r).toNat : ℝ) : EReal) := by
  rw [Read.val_main_v13_apply, Read.val_main_v12_apply, Read.val_main_v10_apply, Read.val_main_v8_apply,
    Read.val_main_v7_apply, Read.val_main_v11_apply, Read.val_main_v9_apply]
  have e : Read.idx_main_v9 (Read.idx_main_v11 (ix3 b z r)) = ix1 b :=
    funext fun a => by match a with | ⟨0, _⟩ => rfl
  rw [e]
  rfl

/-- The softmax times the mask. -/
theorem v27_at (b : Fin 32) (z : Fin 1) (r : Fin 4096) :
    Read.val_main_v27 (F := Ideal) x0 x1 x2 x3 x5 (ix3 b z r) = maskedR (dist x0 x1 x2 x3 b) (lenOf x5 b) r := by
  rw [Read.val_main_v27_apply, v26_at, v13_at, Ideal.mulf_def]
  rfl

/-- The masked softmax's own sum, from zero. -/
theorem v28_at (b : Fin 32) (z : Fin 1) :
    Read.val_main_v28 (F := Ideal) x0 x1 x2 x3 x5 (ix2 b z)
      = 0 + ∑ k : Fin 4096, maskedR (dist x0 x1 x2 x3 b) (lenOf x5 b) k := by
  rw [Read.val_main_v28_apply, Read.val_main_cst_3_apply, Ideal.ofBits_def, Ideal.ofBits_zero_f32]
  refine congrArg (0 + ·) (Finset.sum_congr rfl fun k _ => ?_)
  have e : Read.idx_main_v28 (ix2 b z) k = ix3 b z k :=
    funext fun a => by match a with | ⟨0, _⟩ => rfl | ⟨1, _⟩ => rfl | ⟨2, _⟩ => rfl
  rw [e, v27_at]

/-- The score: the masked softmax over its own sum. -/
theorem v31_at (b : Fin 32) (z : Fin 1) (r : Fin 4096) :
    Read.val_main_v31 (F := Ideal) x0 x1 x2 x3 x5 (ix3 b z r)
      = scoreRowR (seqRow x0 b) (regRow x1 b) (mat x2) (mat x3) (lenOf x5 b) r := by
  rw [Read.val_main_v31_apply, Read.val_main_v30_apply, Read.val_main_v29_apply]
  have e : Read.idx_main_v29 (Read.idx_main_v30 (ix3 b z r)) = ix2 b (0 : Fin 1) :=
    funext fun a => by match a with | ⟨0, _⟩ => rfl | ⟨1, _⟩ => rfl
  rw [e, v27_at, v28_at, Ideal.hostDivf_def]
  rfl

/-! ## The values and the result -/

/-- The regions projected by Wv and clipped below at zero. -/
theorem v5_at (b : Fin 32) (r : Fin 4096) (h : Fin 512) :
    Read.val_main_v5 (F := Ideal) x1 x4 (ix3 b r h) = value (regRow x1 b) (mat x4) r h := by
  rw [Read.val_main_v5_apply, Read.val_main_call0_v0_apply, Read.val_main_call0_cst_apply, Read.val_main_v4_apply,
    Ideal.maximumf_def, Ideal.ofBits_def, Ideal.ofBits_zero_f32]
  unfold value
  refine congrArg (max · 0) (Finset.sum_congr rfl fun d _ => ?_)
  have e1 : Read.lidx_main_v4 (ix3 b r h) d = ix3 b r d :=
    funext fun a => by match a with | ⟨0, _⟩ => rfl | ⟨1, _⟩ => rfl | ⟨2, _⟩ => rfl
  have e2 : Read.ridx_main_v4 (ix3 b r h) d = ix2 h d :=
    funext fun a => by match a with | ⟨0, _⟩ => rfl | ⟨1, _⟩ => rfl
  rw [e1, e2]

/-- The scores against the values, summed over the lanes. -/
theorem v32_at (b : Fin 32) (z : Fin 1) (h : Fin 512) :
    Read.val_main_v32 (F := Ideal) x0 x1 x2 x3 x4 x5 (ix3 b z h)
      = ∑ r : Fin 4096, scoreRowR (seqRow x0 b) (regRow x1 b) (mat x2) (mat x3) (lenOf x5 b) r
          * value (regRow x1 b) (mat x4) r h := by
  rw [Read.val_main_v32_apply]
  refine Finset.sum_congr rfl fun r _ => ?_
  have e1 : Read.lidx_main_v32 (ix3 b z h) r = ix3 b z r :=
    funext fun a => by match a with | ⟨0, _⟩ => rfl | ⟨1, _⟩ => rfl | ⟨2, _⟩ => rfl
  have e2 : Read.ridx_main_v32 (ix3 b z h) r = ix3 b r h :=
    funext fun a => by match a with | ⟨0, _⟩ => rfl | ⟨1, _⟩ => rfl | ⟨2, _⟩ => rfl
  rw [e1, e2, v31_at, v5_at]

/-- The result row: the weighted values plus the query. -/
theorem v33_at (b : Fin 32) (z : Fin 1) (h : Fin 512) :
    Read.val_main_v33 (F := Ideal) x0 x1 x2 x3 x4 x5 (ix3 b z h)
      = outRowR (seqRow x0 b) (regRow x1 b) (mat x2) (mat x3) (mat x4) (lenOf x5 b) h := by
  rw [Read.val_main_v33_apply, v32_at, v2_at, Ideal.addf_def]
  rfl

end Stages

/-! ## The two results -/

theorem score_eq (x0 : (⟨S32x512, .f32⟩ : BufTy).Contents (Elt Ideal)) (x1 : (⟨S32x4096x512, .f32⟩ : BufTy).Contents (Elt Ideal))
    (x2 x3 : (⟨S512x512, .f32⟩ : BufTy).Contents (Elt Ideal)) (x5 : (⟨S32, .i32⟩ : BufTy).Contents (Elt Ideal)) :
    Cert.ReferenceIdeal.Read.val_main_v35 (F := Ideal) x0 x1 x2 x3 x5 = scoreArrR x0 x1 x2 x3 x5 := by
  funext i
  obtain ⟨b, r, rfl⟩ : ∃ (b : Fin 32) (r : Fin 4096), i = ix2 b r := ⟨i 0, i 1, eq_ix2 i⟩
  rw [Read.val_main_v35_apply]
  -- the flat position b·4096 + r splits back into (b, r)
  have e : Read.idx_main_v35 (ix2 b r) = ix3 b (0 : Fin 1) r :=
    funext fun a => Fin.ext (by
      have hr := r.isLt
      match a with
      | ⟨0, _⟩ => show (b.val * 4096 + r.val) / 4096 = b.val; omega
      | ⟨1, _⟩ => rfl
      | ⟨2, _⟩ => show (b.val * 4096 + r.val) % 4096 = r.val; omega)
  rw [e, v31_at]
  rfl

theorem out_eq (x0 : (⟨S32x512, .f32⟩ : BufTy).Contents (Elt Ideal)) (x1 : (⟨S32x4096x512, .f32⟩ : BufTy).Contents (Elt Ideal))
    (x2 x3 x4 : (⟨S512x512, .f32⟩ : BufTy).Contents (Elt Ideal)) (x5 : (⟨S32, .i32⟩ : BufTy).Contents (Elt Ideal)) :
    Cert.ReferenceIdeal.Read.val_main_v34 (F := Ideal) x0 x1 x2 x3 x4 x5 = outArrR x0 x1 x2 x3 x4 x5 := by
  funext i
  obtain ⟨b, h, rfl⟩ : ∃ (b : Fin 32) (h : Fin 512), i = ix2 b h := ⟨i 0, i 1, eq_ix2 i⟩
  rw [Read.val_main_v34_apply]
  -- the flat position b·512 + h splits back into (b, h)
  have e : Read.idx_main_v34 (ix2 b h) = ix3 b (0 : Fin 1) h :=
    funext fun a => Fin.ext (by
      have hh := h.isLt
      match a with
      | ⟨0, _⟩ => show (b.val * 512 + h.val) / 512 = b.val; omega
      | ⟨1, _⟩ => rfl
      | ⟨2, _⟩ => show (b.val * 512 + h.val) % 512 = h.val; omega)
  rw [e, v33_at]
  rfl

end Cert.ReferenceIdeal.RefValue

end
-- ==== Proof.KerPieces.lean ====
/-
  The kernel body's two stores, read as values, and the geometry of its windows.

  The body stores once into each output's staging buffer, through the whole buffer, so the buffer ends holding the stored
  value: a pure term of the blocks the body loaded and of the length word it read from the table. Over the 32 grid points
  the row windows sit at block (t, 0, 0) and the weight windows at block (0, 0).
-/
import proofs.«431180_j86492051406968_3_alg».proof.Proof.Gen.KernelIdeal.Frame
import proofs.«431180_j86492051406968_3_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.KerValue

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.RowAttn

section Pieces

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- The length word the body loads at grid point `i`: the table's entry at the point's own coordinate. -/
def lenWord (c : Dev nD) (i : grid0.Coords) (xt0 : TbBuf0 (F := F) c tbM0_0) : Elt F .i32 :=
  View.readAt (Elt F) tbM0_0.view (Rect.unit (s := S32) (k0_off1 i) S1.size (k0_off1_inb i)).toLoadRect xt0
    (Shape.Idx.first (numel1_S1.symm ▸ Nat.one_pos))

/-- The one store into the score output's staging buffer covers it, so the buffer ends holding the stored value:
    the normalised weights of the point's blocks and length word. -/
theorem out6_eq (c : Dev nD) (i : grid0.Coords) (arg2 : Memref sig .tc .vmem S1x1x512 .f32) (harg2 : arg2.IsWhole) (arg3 : Memref sig .tc .vmem S1x4096x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S1x1x4096 .f32) (harg8 : arg8.IsWhole)
    (x0 : Vec F S1x1x512 .f32) (x1 : Vec F S1x4096x512 .f32) (x2 : Vec F S512x512 .f32) (x3 : Vec F S512x512 .f32) (x4 : Vec F S512x512 .f32) (xt0 : TbBuf0 (F := F) c tbM0_0) :
    out0_A_6 c i arg2 harg2 arg3 harg3 arg4 harg4 arg5 harg5 arg6 harg6 arg7 harg7 arg8 harg8 x0 x1 x2 x3 x4 xt0 = k0_pay2 (k0_pay5 x1 x2 x0 x3 (lenWord c i xt0)) := by
  unfold out0_A_6
  rw [View.read_writes_eq_canon _ _ _ (cover0_A_6 c i arg2 harg2 arg3 harg3 arg4 harg4 arg5 harg5 arg6 harg6 arg7 harg7 arg8 harg8 x0 x1 x2 x3 x4 xt0)]
  unfold kernelRun0_A
  dsimp only
  sl_unfold_words
  rw [View.canon_unit_zero hz3]
  unfold lenWord
  simp only [View.readAt_eq_ld, harg2.read_unread, harg3.read_unread, harg4.read_unread, harg5.read_unread,
    View.ld_unit_zero (S := S1x4096x512) hz3, View.ld_unit_zero (S := S512x512) hz2, View.ld_unit_zero (S := S1x1x512) hz3]
  rfl

/-- Likewise the one store into the result output's staging buffer: the attended values plus the query. -/
theorem out5_eq (c : Dev nD) (i : grid0.Coords) (arg2 : Memref sig .tc .vmem S1x1x512 .f32) (harg2 : arg2.IsWhole) (arg3 : Memref sig .tc .vmem S1x4096x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x1x512 .f32) (harg7 : arg7.IsWhole) (arg8 : Memref sig .tc .vmem S1x1x4096 .f32) (harg8 : arg8.IsWhole)
    (x0 : Vec F S1x1x512 .f32) (x1 : Vec F S1x4096x512 .f32) (x2 : Vec F S512x512 .f32) (x3 : Vec F S512x512 .f32) (x4 : Vec F S512x512 .f32) (xt0 : TbBuf0 (F := F) c tbM0_0) :
    out0_A_5 c i arg2 harg2 arg3 harg3 arg4 harg4 arg5 harg5 arg6 harg6 arg7 harg7 arg8 harg8 x0 x1 x2 x3 x4 xt0
      = k0_pay1 (k0_pay4 x2 x0) (k0_pay6 x1 x2 x0 x3 (lenWord c i xt0)) (k0_pay7 x1 x4) k0_pay8 := by
  unfold out0_A_5
  rw [View.read_writes_eq_canon _ _ _ (cover0_A_5 c i arg2 harg2 arg3 harg3 arg4 harg4 arg5 harg5 arg6 harg6 arg7 harg7 arg8 harg8 x0 x1 x2 x3 x4 xt0)]
  unfold kernelRun0_A
  dsimp only
  sl_unfold_words
  rw [View.canon_unit_zero hz3]
  unfold lenWord
  simp only [View.readAt_eq_ld, harg2.read_unread, harg3.read_unread, harg4.read_unread, harg5.read_unread, harg6.read_unread,
    View.ld_unit_zero (S := S1x4096x512) hz3, View.ld_unit_zero (S := S512x512) hz2, View.ld_unit_zero (S := S1x1x512) hz3]
  rfl

end Pieces

section Run

variable (m : (ℓ : Loc nD τ sig) → Buf (Elt Ideal) ℓ) (ρ : Dev nD → PrngReg)

/-- The printed index maps over the 32 grid points: the three row windows sit at block (t, 0, 0), the three weights at
    block (0, 0), and the body loads the length word at offset t. -/
theorem idx_facts : ∀ t : Fin grid0.N,
    (cc0_transform_0 (grid0.coords t) 0 = t.val ∧ cc0_transform_0 (grid0.coords t) 1 = 0 ∧ cc0_transform_0 (grid0.coords t) 2 = 0)
    ∧ (cc0_transform_1 (grid0.coords t) 0 = t.val ∧ cc0_transform_1 (grid0.coords t) 1 = 0 ∧ cc0_transform_1 (grid0.coords t) 2 = 0)
    ∧ (cc0_transform_2 (grid0.coords t) 0 = 0 ∧ cc0_transform_2 (grid0.coords t) 1 = 0)
    ∧ (cc0_transform_3 (grid0.coords t) 0 = 0 ∧ cc0_transform_3 (grid0.coords t) 1 = 0)
    ∧ (cc0_transform_4 (grid0.coords t) 0 = 0 ∧ cc0_transform_4 (grid0.coords t) 1 = 0)
    ∧ (cc0_transform_5 (grid0.coords t) 0 = t.val ∧ cc0_transform_5 (grid0.coords t) 1 = 0 ∧ cc0_transform_5 (grid0.coords t) 2 = 0)
    ∧ (cc0_transform_6 (grid0.coords t) 0 = t.val ∧ cc0_transform_6 (grid0.coords t) 1 = 0 ∧ cc0_transform_6 (grid0.coords t) 2 = 0)
    ∧ k0_off1 (grid0.coords t) 0 = t.val := by
  decide +kernel

/-- The one line before the region re-lays the query input [32,512] as [32,1,512]. -/
theorem V_v0 (c : Dev nD) :
    (V m c main_v0 : S32x1x512.Idx → EReal)
      = shapeCast S32x1x512 (m ((c : Thread nD τ).loc main_arg0)) shapeCasts_S32x512_S32x1x512 := by
  show StableHlo.after hostOps0 (fun b => m (c, b)) (Proc.devRef .tc main_v0) = _
  after_results
  rfl

/-- What the score output's array [32,1,4096] ends holding: entry (b, 0, r) is lane r of row b's kernel-order score. -/
def G6 (c : Dev nD) : S32x1x4096.Idx → EReal := fun i =>
  scoreArrK (m ((c : Thread nD τ).loc main_arg0)) (m ((c : Thread nD τ).loc main_arg1)) (m ((c : Thread nD τ).loc main_arg2))
    (m ((c : Thread nD τ).loc main_arg3)) (m ((c : Thread nD τ).loc main_arg5)) (ix2 (i 0) (i 2))

/-- What the result output's array [32,1,512] ends holding: entry (b, 0, h) is entry h of row b's kernel-order result. -/
def G5 (c : Dev nD) : S32x1x512.Idx → EReal := fun i =>
  outArrK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (ix2 (i 0) (i 2))

end Run

end Cert.KernelIdeal.KerValue

end
-- ==== Proof.KerPayload.lean ====
/-
  One grid step of the kernel body, read at an index: the two values it stores are the specification's kernel-order rows.

  The body holds the query row sq (a [1,1,512] block), the 4096 regions rg (a [1,4096,512] block), three weights
  Wq, Wk, Wv stored [out][in], and the row's length word s. Over the extended reals every narrowing is the identity, so
    q[h]      = Σ_k sq[k] · Wq[h][k]
    t[d]      = Σ_h q[h] · Wk[h][d]
    dist[r]   = Σ_d t[d] · rg[r][d]
    l[r]      = dist[r] / scale where r < s, −∞ elsewhere (the named sentinel denotes −∞)
    score[r]  = exp(l[r] − max l) / Σ_k exp(l[k] − max l)
    v[r][h]   = max(Σ_d rg[r][d] · Wv[h][d], 0)
    out[h]    = Σ_r score[r] · v[r][h] + q[h]
  Each product is read at an index as the sum over its one contracted coordinate, each lane reduction as the fold or sum
  over the 4096 lanes, each reshaping as a renaming of coordinates; the pointwise operations read through. The stored
  score row is `scoreRowK` and the stored result row is `outRowK`.
-/
import proofs.«431180_j86492051406968_3_alg».proof.Proof.Gen.KernelIdeal.Skeleton
import proofs.«431180_j86492051406968_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.RowAttn
open scoped BigOperators

/-! ## The five products, each read at an index as a sum over the contracted coordinate -/

/-! ### query row: [1,512] times a weight [512,512] stored [out][in], contracted on both second axes -/

theorem lhs_q_0 (i : S1x512.Idx) (q : dot_S1x512_S512x512_S1x512_1_1_0_0_n_n.contr.Idx) :
    (dot_S1x512_S512x512_S1x512_1_1_0_0_n_n.lhsIdx i q 0).val = (i 0).val := by
  unfold DotDims.lhsIdx
  rw [dif_neg (show ¬(0 : Fin S1x512.rank) ∈ dot_S1x512_S512x512_S1x512_1_1_0_0_n_n.lhsBatch by decide), dif_pos (show (0 : Fin S1x512.rank) ∈ dot_S1x512_S512x512_S1x512_1_1_0_0_n_n.lhsNonContracting by decide)]
  rfl
theorem lhs_q_1 (i : S1x512.Idx) (q : dot_S1x512_S512x512_S1x512_1_1_0_0_n_n.contr.Idx) :
    (dot_S1x512_S512x512_S1x512_1_1_0_0_n_n.lhsIdx i q 1).val = (q ⟨0, by decide⟩).val :=
  dot_S1x512_S512x512_S1x512_1_1_0_0_n_n.lhsIdx_val_of_single rfl i q
theorem rhs_q_0 (i : S1x512.Idx) (q : dot_S1x512_S512x512_S1x512_1_1_0_0_n_n.contr.Idx) :
    (dot_S1x512_S512x512_S1x512_1_1_0_0_n_n.rhsIdx i q 0).val = (i 1).val := by
  unfold DotDims.rhsIdx
  rw [dif_neg (show ¬(0 : Fin S512x512.rank) ∈ dot_S1x512_S512x512_S1x512_1_1_0_0_n_n.rhsBatch by decide), dif_pos (show (0 : Fin S512x512.rank) ∈ dot_S1x512_S512x512_S1x512_1_1_0_0_n_n.rhsNonContracting by decide)]
  rfl
theorem rhs_q_1 (i : S1x512.Idx) (q : dot_S1x512_S512x512_S1x512_1_1_0_0_n_n.contr.Idx) :
    (dot_S1x512_S512x512_S1x512_1_1_0_0_n_n.rhsIdx i q 1).val = (q ⟨0, by decide⟩).val :=
  dot_S1x512_S512x512_S1x512_1_1_0_0_n_n.rhsIdx_val_of_single rfl i q

/-- (a · Wᵀ)[p][h] = Σ_k a[p][k] · W[h][k]. -/
theorem mm_q_apply (a : FVec Ideal S1x512 .bf16) (w : FVec Ideal S512x512 .bf16) (p : Fin 1) (h : Fin 512) :
    matmul dot_S1x512_S512x512_S1x512_1_1_0_0_n_n none a w (constant (F := Ideal) S1x512 .f32 0x00000000#32) (ix2 p h)
      = ∑ k : Fin 512, a (ix2 p k) * w (ix2 h k) := by
  simp only [matmul]
  rw [Ideal.matmul_constant_zero_apply, ← Equiv.sum_comp (contrEquiv1 dot_S1x512_S512x512_S1x512_1_1_0_0_n_n 512 rfl rfl).symm]
  refine Finset.sum_congr rfl fun k _ => ?_
  have hk := contrEquiv1_symm_val dot_S1x512_S512x512_S1x512_1_1_0_0_n_n 512 rfl rfl k
  have el : dot_S1x512_S512x512_S1x512_1_1_0_0_n_n.lhsIdx (ix2 p h) ((contrEquiv1 dot_S1x512_S512x512_S1x512_1_1_0_0_n_n 512 rfl rfl).symm k) = ix2 p k := funext fun c => Fin.ext (by
    match c with
    | ⟨0, _⟩ => exact lhs_q_0 _ _
    | ⟨1, _⟩ => exact (lhs_q_1 _ _).trans hk)
  have er : dot_S1x512_S512x512_S1x512_1_1_0_0_n_n.rhsIdx (ix2 p h) ((contrEquiv1 dot_S1x512_S512x512_S1x512_1_1_0_0_n_n 512 rfl rfl).symm k) = ix2 h k := funext fun c => Fin.ext (by
    match c with
    | ⟨0, _⟩ => exact rhs_q_0 _ _
    | ⟨1, _⟩ => exact (rhs_q_1 _ _).trans hk)
  rw [el, er]

/-! ### t = q · Wk: [1,512] times a weight [512,512], contracted on the left's second and the right's first axis -/

theorem lhs_t_0 (i : S1x512.Idx) (q : dot_S1x512_S512x512_S1x512_1_0_0_1_n_n.contr.Idx) :
    (dot_S1x512_S512x512_S1x512_1_0_0_1_n_n.lhsIdx i q 0).val = (i 0).val := by
  unfold DotDims.lhsIdx
  rw [dif_neg (show ¬(0 : Fin S1x512.rank) ∈ dot_S1x512_S512x512_S1x512_1_0_0_1_n_n.lhsBatch by decide), dif_pos (show (0 : Fin S1x512.rank) ∈ dot_S1x512_S512x512_S1x512_1_0_0_1_n_n.lhsNonContracting by decide)]
  rfl
theorem lhs_t_1 (i : S1x512.Idx) (q : dot_S1x512_S512x512_S1x512_1_0_0_1_n_n.contr.Idx) :
    (dot_S1x512_S512x512_S1x512_1_0_0_1_n_n.lhsIdx i q 1).val = (q ⟨0, by decide⟩).val :=
  dot_S1x512_S512x512_S1x512_1_0_0_1_n_n.lhsIdx_val_of_single rfl i q
theorem rhs_t_0 (i : S1x512.Idx) (q : dot_S1x512_S512x512_S1x512_1_0_0_1_n_n.contr.Idx) :
    (dot_S1x512_S512x512_S1x512_1_0_0_1_n_n.rhsIdx i q 0).val = (q ⟨0, by decide⟩).val :=
  dot_S1x512_S512x512_S1x512_1_0_0_1_n_n.rhsIdx_val_of_single rfl i q
theorem rhs_t_1 (i : S1x512.Idx) (q : dot_S1x512_S512x512_S1x512_1_0_0_1_n_n.contr.Idx) :
    (dot_S1x512_S512x512_S1x512_1_0_0_1_n_n.rhsIdx i q 1).val = (i 1).val := by
  unfold DotDims.rhsIdx
  rw [dif_neg (show ¬(1 : Fin S512x512.rank) ∈ dot_S1x512_S512x512_S1x512_1_0_0_1_n_n.rhsBatch by decide), dif_pos (show (1 : Fin S512x512.rank) ∈ dot_S1x512_S512x512_S1x512_1_0_0_1_n_n.rhsNonContracting by decide)]
  rfl

/-- (a · W)[p][d] = Σ_h a[p][h] · W[h][d]. -/
theorem mm_t_apply (a : FVec Ideal S1x512 .bf16) (w : FVec Ideal S512x512 .bf16) (p : Fin 1) (d : Fin 512) :
    matmul dot_S1x512_S512x512_S1x512_1_0_0_1_n_n none a w (constant (F := Ideal) S1x512 .f32 0x00000000#32) (ix2 p d)
      = ∑ h : Fin 512, a (ix2 p h) * w (ix2 h d) := by
  simp only [matmul]
  rw [Ideal.matmul_constant_zero_apply, ← Equiv.sum_comp (contrEquiv1 dot_S1x512_S512x512_S1x512_1_0_0_1_n_n 512 rfl rfl).symm]
  refine Finset.sum_congr rfl fun k _ => ?_
  have hk := contrEquiv1_symm_val dot_S1x512_S512x512_S1x512_1_0_0_1_n_n 512 rfl rfl k
  have el : dot_S1x512_S512x512_S1x512_1_0_0_1_n_n.lhsIdx (ix2 p d) ((contrEquiv1 dot_S1x512_S512x512_S1x512_1_0_0_1_n_n 512 rfl rfl).symm k) = ix2 p k := funext fun c => Fin.ext (by
    match c with
    | ⟨0, _⟩ => exact lhs_t_0 _ _
    | ⟨1, _⟩ => exact (lhs_t_1 _ _).trans hk)
  have er : dot_S1x512_S512x512_S1x512_1_0_0_1_n_n.rhsIdx (ix2 p d) ((contrEquiv1 dot_S1x512_S512x512_S1x512_1_0_0_1_n_n 512 rfl rfl).symm k) = ix2 k d := funext fun c => Fin.ext (by
    match c with
    | ⟨0, _⟩ => exact (rhs_t_0 _ _).trans hk
    | ⟨1, _⟩ => exact rhs_t_1 _ _)
  rw [el, er]

/-! ### dist = t · rgᵀ: [1,512] times the regions [4096,512], contracted on both second axes -/

theorem lhs_d_0 (i : S1x4096.Idx) (q : dot_S1x512_S4096x512_S1x4096_1_1_0_0_n_n.contr.Idx) :
    (dot_S1x512_S4096x512_S1x4096_1_1_0_0_n_n.lhsIdx i q 0).val = (i 0).val := by
  unfold DotDims.lhsIdx
  rw [dif_neg (show ¬(0 : Fin S1x512.rank) ∈ dot_S1x512_S4096x512_S1x4096_1_1_0_0_n_n.lhsBatch by decide), dif_pos (show (0 : Fin S1x512.rank) ∈ dot_S1x512_S4096x512_S1x4096_1_1_0_0_n_n.lhsNonContracting by decide)]
  rfl
theorem lhs_d_1 (i : S1x4096.Idx) (q : dot_S1x512_S4096x512_S1x4096_1_1_0_0_n_n.contr.Idx) :
    (dot_S1x512_S4096x512_S1x4096_1_1_0_0_n_n.lhsIdx i q 1).val = (q ⟨0, by decide⟩).val :=
  dot_S1x512_S4096x512_S1x4096_1_1_0_0_n_n.lhsIdx_val_of_single rfl i q
theorem rhs_d_0 (i : S1x4096.Idx) (q : dot_S1x512_S4096x512_S1x4096_1_1_0_0_n_n.contr.Idx) :
    (dot_S1x512_S4096x512_S1x4096_1_1_0_0_n_n.rhsIdx i q 0).val = (i 1).val := by
  unfold DotDims.rhsIdx
  rw [dif_neg (show ¬(0 : Fin S4096x512.rank) ∈ dot_S1x512_S4096x512_S1x4096_1_1_0_0_n_n.rhsBatch by decide), dif_pos (show (0 : Fin S4096x512.rank) ∈ dot_S1x512_S4096x512_S1x4096_1_1_0_0_n_n.rhsNonContracting by decide)]
  rfl
theorem rhs_d_1 (i : S1x4096.Idx) (q : dot_S1x512_S4096x512_S1x4096_1_1_0_0_n_n.contr.Idx) :
    (dot_S1x512_S4096x512_S1x4096_1_1_0_0_n_n.rhsIdx i q 1).val = (q ⟨0, by decide⟩).val :=
  dot_S1x512_S4096x512_S1x4096_1_1_0_0_n_n.rhsIdx_val_of_single rfl i q

/-- (a · Bᵀ)[p][r] = Σ_d a[p][d] · B[r][d]. -/
theorem mm_d_apply (a : FVec Ideal S1x512 .bf16) (b : FVec Ideal S4096x512 .bf16) (p : Fin 1) (r : Fin 4096) :
    matmul dot_S1x512_S4096x512_S1x4096_1_1_0_0_n_n none a b (constant (F := Ideal) S1x4096 .f32 0x00000000#32) (ix2 p r)
      = ∑ d : Fin 512, a (ix2 p d) * b (ix2 r d) := by
  simp only [matmul]
  rw [Ideal.matmul_constant_zero_apply, ← Equiv.sum_comp (contrEquiv1 dot_S1x512_S4096x512_S1x4096_1_1_0_0_n_n 512 rfl rfl).symm]
  refine Finset.sum_congr rfl fun k _ => ?_
  have hk := contrEquiv1_symm_val dot_S1x512_S4096x512_S1x4096_1_1_0_0_n_n 512 rfl rfl k
  have el : dot_S1x512_S4096x512_S1x4096_1_1_0_0_n_n.lhsIdx (ix2 p r) ((contrEquiv1 dot_S1x512_S4096x512_S1x4096_1_1_0_0_n_n 512 rfl rfl).symm k) = ix2 p k := funext fun c => Fin.ext (by
    match c with
    | ⟨0, _⟩ => exact lhs_d_0 _ _
    | ⟨1, _⟩ => exact (lhs_d_1 _ _).trans hk)
  have er : dot_S1x512_S4096x512_S1x4096_1_1_0_0_n_n.rhsIdx (ix2 p r) ((contrEquiv1 dot_S1x512_S4096x512_S1x4096_1_1_0_0_n_n 512 rfl rfl).symm k) = ix2 r k := funext fun c => Fin.ext (by
    match c with
    | ⟨0, _⟩ => exact rhs_d_0 _ _
    | ⟨1, _⟩ => exact (rhs_d_1 _ _).trans hk)
  rw [el, er]

/-! ### value projection: the regions [4096,512] times a weight [512,512] stored [out][in], contracted on both second axes -/

theorem lhs_v_0 (i : S4096x512.Idx) (q : dot_S4096x512_S512x512_S4096x512_1_1_0_0_n_n.contr.Idx) :
    (dot_S4096x512_S512x512_S4096x512_1_1_0_0_n_n.lhsIdx i q 0).val = (i 0).val := by
  unfold DotDims.lhsIdx
  rw [dif_neg (show ¬(0 : Fin S4096x512.rank) ∈ dot_S4096x512_S512x512_S4096x512_1_1_0_0_n_n.lhsBatch by decide), dif_pos (show (0 : Fin S4096x512.rank) ∈ dot_S4096x512_S512x512_S4096x512_1_1_0_0_n_n.lhsNonContracting by decide)]
  rfl
theorem lhs_v_1 (i : S4096x512.Idx) (q : dot_S4096x512_S512x512_S4096x512_1_1_0_0_n_n.contr.Idx) :
    (dot_S4096x512_S512x512_S4096x512_1_1_0_0_n_n.lhsIdx i q 1).val = (q ⟨0, by decide⟩).val :=
  dot_S4096x512_S512x512_S4096x512_1_1_0_0_n_n.lhsIdx_val_of_single rfl i q
theorem rhs_v_0 (i : S4096x512.Idx) (q : dot_S4096x512_S512x512_S4096x512_1_1_0_0_n_n.contr.Idx) :
    (dot_S4096x512_S512x512_S4096x512_1_1_0_0_n_n.rhsIdx i q 0).val = (i 1).val := by
  unfold DotDims.rhsIdx
  rw [dif_neg (show ¬(0 : Fin S512x512.rank) ∈ dot_S4096x512_S512x512_S4096x512_1_1_0_0_n_n.rhsBatch by decide), dif_pos (show (0 : Fin S512x512.rank) ∈ dot_S4096x512_S512x512_S4096x512_1_1_0_0_n_n.rhsNonContracting by decide)]
  rfl
theorem rhs_v_1 (i : S4096x512.Idx) (q : dot_S4096x512_S512x512_S4096x512_1_1_0_0_n_n.contr.Idx) :
    (dot_S4096x512_S512x512_S4096x512_1_1_0_0_n_n.rhsIdx i q 1).val = (q ⟨0, by decide⟩).val :=
  dot_S4096x512_S512x512_S4096x512_1_1_0_0_n_n.rhsIdx_val_of_single rfl i q

/-- (A · Wᵀ)[r][h] = Σ_d A[r][d] · W[h][d]. -/
theorem mm_v_apply (a : FVec Ideal S4096x512 .bf16) (w : FVec Ideal S512x512 .bf16) (r : Fin 4096) (h : Fin 512) :
    matmul dot_S4096x512_S512x512_S4096x512_1_1_0_0_n_n none a w (constant (F := Ideal) S4096x512 .f32 0x00000000#32) (ix2 r h)
      = ∑ d : Fin 512, a (ix2 r d) * w (ix2 h d) := by
  simp only [matmul]
  rw [Ideal.matmul_constant_zero_apply, ← Equiv.sum_comp (contrEquiv1 dot_S4096x512_S512x512_S4096x512_1_1_0_0_n_n 512 rfl rfl).symm]
  refine Finset.sum_congr rfl fun k _ => ?_
  have hk := contrEquiv1_symm_val dot_S4096x512_S512x512_S4096x512_1_1_0_0_n_n 512 rfl rfl k
  have el : dot_S4096x512_S512x512_S4096x512_1_1_0_0_n_n.lhsIdx (ix2 r h) ((contrEquiv1 dot_S4096x512_S512x512_S4096x512_1_1_0_0_n_n 512 rfl rfl).symm k) = ix2 r k := funext fun c => Fin.ext (by
    match c with
    | ⟨0, _⟩ => exact lhs_v_0 _ _
    | ⟨1, _⟩ => exact (lhs_v_1 _ _).trans hk)
  have er : dot_S4096x512_S512x512_S4096x512_1_1_0_0_n_n.rhsIdx (ix2 r h) ((contrEquiv1 dot_S4096x512_S512x512_S4096x512_1_1_0_0_n_n 512 rfl rfl).symm k) = ix2 h k := funext fun c => Fin.ext (by
    match c with
    | ⟨0, _⟩ => exact rhs_v_0 _ _
    | ⟨1, _⟩ => exact (rhs_v_1 _ _).trans hk)
  rw [el, er]

/-! ### weighted sum: the score row [1,4096] times the values [4096,512], contracted on the left's second and the right's first axis -/

theorem lhs_o_0 (i : S1x512.Idx) (q : dot_S1x4096_S4096x512_S1x512_1_0_0_1_n_n.contr.Idx) :
    (dot_S1x4096_S4096x512_S1x512_1_0_0_1_n_n.lhsIdx i q 0).val = (i 0).val := by
  unfold DotDims.lhsIdx
  rw [dif_neg (show ¬(0 : Fin S1x4096.rank) ∈ dot_S1x4096_S4096x512_S1x512_1_0_0_1_n_n.lhsBatch by decide), dif_pos (show (0 : Fin S1x4096.rank) ∈ dot_S1x4096_S4096x512_S1x512_1_0_0_1_n_n.lhsNonContracting by decide)]
  rfl
theorem lhs_o_1 (i : S1x512.Idx) (q : dot_S1x4096_S4096x512_S1x512_1_0_0_1_n_n.contr.Idx) :
    (dot_S1x4096_S4096x512_S1x512_1_0_0_1_n_n.lhsIdx i q 1).val = (q ⟨0, by decide⟩).val :=
  dot_S1x4096_S4096x512_S1x512_1_0_0_1_n_n.lhsIdx_val_of_single rfl i q
theorem rhs_o_0 (i : S1x512.Idx) (q : dot_S1x4096_S4096x512_S1x512_1_0_0_1_n_n.contr.Idx) :
    (dot_S1x4096_S4096x512_S1x512_1_0_0_1_n_n.rhsIdx i q 0).val = (q ⟨0, by decide⟩).val :=
  dot_S1x4096_S4096x512_S1x512_1_0_0_1_n_n.rhsIdx_val_of_single rfl i q
theorem rhs_o_1 (i : S1x512.Idx) (q : dot_S1x4096_S4096x512_S1x512_1_0_0_1_n_n.contr.Idx) :
    (dot_S1x4096_S4096x512_S1x512_1_0_0_1_n_n.rhsIdx i q 1).val = (i 1).val := by
  unfold DotDims.rhsIdx
  rw [dif_neg (show ¬(1 : Fin S4096x512.rank) ∈ dot_S1x4096_S4096x512_S1x512_1_0_0_1_n_n.rhsBatch by decide), dif_pos (show (1 : Fin S4096x512.rank) ∈ dot_S1x4096_S4096x512_S1x512_1_0_0_1_n_n.rhsNonContracting by decide)]
  rfl

/-- (a · B)[p][h] = Σ_r a[p][r] · B[r][h]. -/
theorem mm_o_apply (a : FVec Ideal S1x4096 .bf16) (b : FVec Ideal S4096x512 .bf16) (p : Fin 1) (h : Fin 512) :
    matmul dot_S1x4096_S4096x512_S1x512_1_0_0_1_n_n none a b (constant (F := Ideal) S1x512 .f32 0x00000000#32) (ix2 p h)
      = ∑ r : Fin 4096, a (ix2 p r) * b (ix2 r h) := by
  simp only [matmul]
  rw [Ideal.matmul_constant_zero_apply, ← Equiv.sum_comp (contrEquiv1 dot_S1x4096_S4096x512_S1x512_1_0_0_1_n_n 4096 rfl rfl).symm]
  refine Finset.sum_congr rfl fun k _ => ?_
  have hk := contrEquiv1_symm_val dot_S1x4096_S4096x512_S1x512_1_0_0_1_n_n 4096 rfl rfl k
  have el : dot_S1x4096_S4096x512_S1x512_1_0_0_1_n_n.lhsIdx (ix2 p h) ((contrEquiv1 dot_S1x4096_S4096x512_S1x512_1_0_0_1_n_n 4096 rfl rfl).symm k) = ix2 p k := funext fun c => Fin.ext (by
    match c with
    | ⟨0, _⟩ => exact lhs_o_0 _ _
    | ⟨1, _⟩ => exact (lhs_o_1 _ _).trans hk)
  have er : dot_S1x4096_S4096x512_S1x512_1_0_0_1_n_n.rhsIdx (ix2 p h) ((contrEquiv1 dot_S1x4096_S4096x512_S1x512_1_0_0_1_n_n 4096 rfl rfl).symm k) = ix2 k h := funext fun c => Fin.ext (by
    match c with
    | ⟨0, _⟩ => exact (rhs_o_0 _ _).trans hk
    | ⟨1, _⟩ => exact rhs_o_1 _ _)
  rw [el, er]

/-! ## The two lane reductions and the words of the mask, read at an index -/

/-- The bit pattern of −∞ denotes the bottom of the extended reals. -/
theorem negInf_word : FloatOps.ofBits (F := Ideal) .f32 0xFF800000#32 = (⊥ : EReal) := by
  simp [Ideal.ofBits, Ideal.ieee]

/-- The named sentinel denotes −∞ by the certificate's table. -/
theorem negBig_word : Named.named (F := Ideal) Cert.KernelIdeal.κ "neg_big" (φ := .f32) 0xFF333332#32 = (⊥ : EReal) :=
  IdealRules.named_const.ideal_named_scalar _ _ _ _ rfl

/-- The source index over lane `k` of the row `u`. -/
theorem lane_lift (u : Fin 1) (k : Fin 4096) : reduces_S1x4096_S1.lift (ix1 u) k = ix2 u k :=
  funext fun c => Fin.ext (match c with | ⟨0, _⟩ => rfl | ⟨1, _⟩ => rfl)

/-- The maximum over the lanes: the fold of `max` from −∞ over the 4096 lanes of the row. -/
theorem laneMax_apply (l : FVec Ideal S1x4096 .f32) (u : Fin 1) :
    multiReduction (F := Ideal) .maximumf [1] S1 l 0xFF800000#32 reduces_S1x4096_S1 (.inl rfl) rfl (ix1 u)
      = (Finset.univ : Finset (Fin 4096)).fold max ⊥ (fun k => l (ix2 u k)) := by
  refine (Ideal.multiReduction_maximumf_single l 0xFF800000#32 reduces_S1x4096_S1 (.inl rfl) rfl (ix1 u)).trans ?_
  have hf : (l ∘ reduces_S1x4096_S1.lift (ix1 u)) = fun k : Fin 4096 => l (ix2 u k) :=
    funext fun k => congrArg l (lane_lift u k)
  rw [negInf_word, hf]
  rfl

/-- The sum over the lanes. -/
theorem laneSum_apply (w : FVec Ideal S1x4096 .f32) (u : Fin 1) :
    multiReduction (F := Ideal) .add [1] S1 w 0x00000000#32 reduces_S1x4096_S1 (.inl rfl) rfl (ix1 u)
      = ∑ k : Fin 4096, w (ix2 u k) := by
  refine (Ideal.multiReduction_add_single w 0x00000000#32 reduces_S1x4096_S1 (.inl rfl) rfl (ix1 u)).trans ?_
  exact Finset.sum_congr rfl fun k _ => congrArg w (lane_lift u k)

/-- A one-number vector, viewed [1,1] and spread over the 4096 lanes, reads that number at every lane. -/
theorem spread_apply (m : FVec Ideal S1 .f32) (r : Fin 4096) :
    broadcastTo S1x4096 (shapeCast S1x1 m shapeCasts_S1_S1x1) broadcasts_S1x1_S1x4096 (ix2 (0 : Fin 1) r) = m (ix1 (0 : Fin 1)) := by
  refine (broadcastTo_apply (shapeCast S1x1 m shapeCasts_S1_S1x1) broadcasts_S1x1_S1x4096 (ix2 (0 : Fin 1) r)
    (ix2 (0 : Fin 1) (0 : Fin 1)) fun c => ?_).trans ?_
  · match c with
    | ⟨0, _⟩ => rfl
    | ⟨1, _⟩ => rfl
  · exact shapeCast_a_1a_apply m shapeCasts_S1_S1x1 0 0

/-! ## The body's values, one at a time -/

/-- The regions' block viewed [4096,512] (and kept, the narrowing being the identity on exact numbers). -/
theorem regions_apply (x1 : Vec Ideal S1x4096x512 .f32) (r : Fin 4096) (d : Fin 512) :
    k0_pay3 (F := Ideal) x1 (ix2 r d) = x1 (ix3 (0 : Fin 1) r d) :=
  shapeCast_1ab_ab_apply x1 shapeCasts_S1x4096x512_S4096x512 r d

/-- The query row: q[h] = Σ_k sq[k] · Wq[h][k]. -/
theorem query_apply (x2 : Vec Ideal S512x512 .f32) (x0 : Vec Ideal S1x1x512 .f32) (h : Fin 512) :
    k0_pay4 (F := Ideal) x2 x0 (ix2 (0 : Fin 1) h) = query (fun k => x0 (ix3 0 0 k)) (mat x2) h := by
  unfold k0_pay4
  refine (mm_q_apply _ _ 0 h).trans ?_
  unfold query
  refine Finset.sum_congr rfl fun k _ => ?_
  rw [truncf_apply, truncf_apply]
  exact congrArg (· * x2 (ix2 h k)) (shapeCast_1ab_ab_apply x0 shapeCasts_S1x1x512_S1x512 0 k)

/-- The query carried through Wk: t[d] = Σ_h q[h] · Wk[h][d]. -/
theorem through_apply (q : FVec Ideal S1x512 .f32) (x3 : Vec Ideal S512x512 .f32) (d : Fin 512) :
    matmul dot_S1x512_S512x512_S1x512_1_0_0_1_n_n none (truncf .bf16 q bitsLt_bf16_f32) (truncf .bf16 x3 bitsLt_bf16_f32)
        (constant (F := Ideal) S1x512 .f32 0x00000000#32) (ix2 (0 : Fin 1) d)
      = ∑ h : Fin 512, q (ix2 0 h) * mat x3 h d :=
  mm_t_apply _ _ 0 d

/-- The distances: dist[r] = Σ_d t[d] · rg[r][d]. -/
theorem dist_apply (t : FVec Ideal S1x512 .f32) (x1 : Vec Ideal S1x4096x512 .f32) (r : Fin 4096) :
    matmul dot_S1x512_S4096x512_S1x4096_1_1_0_0_n_n none (truncf .bf16 t bitsLt_bf16_f32) (k0_pay3 (F := Ideal) x1)
        (constant (F := Ideal) S1x4096 .f32 0x00000000#32) (ix2 (0 : Fin 1) r)
      = ∑ d : Fin 512, t (ix2 0 d) * x1 (ix3 0 r d) := by
  refine (mm_d_apply _ _ 0 r).trans ?_
  refine Finset.sum_congr rfl fun d _ => ?_
  rw [truncf_apply, regions_apply]

/-- The logits: the distance over the scale where the lane counts, −∞ where it does not. -/
theorem logit_apply (dist : FVec Ideal S1x4096 .f32) (s : Elt Ideal .i32) (r : Fin 4096) :
    select (cmpi .slt (iota .tc S1x4096 32 [1] iota_S1x4096_d1_w32) (broadcast S1x4096 s))
        (divf dist (broadcast S1x4096 (Scalar.ofBits (F := Ideal) .f32 0x41B504F3#32)))
        (broadcast S1x4096 (Named.named (F := Ideal) Cert.KernelIdeal.κ "neg_big" (φ := .f32) 0xFF333332#32)) (ix2 (0 : Fin 1) r)
      = Scalar.select (lane s r) (Ideal.div (dist (ix2 0 r)) scale) ⊥ := by
  rw [select_apply, divf_apply, broadcast_apply, broadcast_apply, negBig_word]
  show Scalar.select (IntOp.cmpi .slt (iota .tc S1x4096 32 [1] iota_S1x4096_d1_w32 (ix2 (0 : Fin 1) r)) s) _ _ = _
  rw [iota_single_apply]
  rfl

/-- The softmax of a row of logits, lane by lane. -/
theorem softmax_apply (l : FVec Ideal S1x4096 .f32) (r : Fin 4096) :
    divf (exp (subf l (broadcastTo S1x4096 (shapeCast S1x1
          (multiReduction (F := Ideal) .maximumf [1] S1 l 0xFF800000#32 reduces_S1x4096_S1 (.inl rfl) rfl) shapeCasts_S1_S1x1) broadcasts_S1x1_S1x4096)))
        (broadcastTo S1x4096 (shapeCast S1x1
          (multiReduction (F := Ideal) .add [1] S1
            (exp (subf l (broadcastTo S1x4096 (shapeCast S1x1
              (multiReduction (F := Ideal) .maximumf [1] S1 l 0xFF800000#32 reduces_S1x4096_S1 (.inl rfl) rfl) shapeCasts_S1_S1x1) broadcasts_S1x1_S1x4096)))
            0x00000000#32 reduces_S1x4096_S1 (.inl rfl) rfl) shapeCasts_S1_S1x1) broadcasts_S1x1_S1x4096) (ix2 (0 : Fin 1) r)
      = scoreK (fun k => l (ix2 0 k)) r := by
  have hw : ∀ k : Fin 4096, exp (subf l (broadcastTo S1x4096 (shapeCast S1x1
          (multiReduction (F := Ideal) .maximumf [1] S1 l 0xFF800000#32 reduces_S1x4096_S1 (.inl rfl) rfl) shapeCasts_S1_S1x1) broadcasts_S1x1_S1x4096))
        (ix2 (0 : Fin 1) k) = weightK (fun k => l (ix2 0 k)) k := fun k => by
    show Ideal.exp (l (ix2 (0 : Fin 1) k) - _) = _
    rw [spread_apply, laneMax_apply]
    rfl
  rw [divf_apply, spread_apply, laneSum_apply, hw r]
  unfold scoreK
  exact congrArg (Ideal.div _) (Finset.sum_congr rfl fun k _ => hw k)

/-- The projected regions, kept where positive: v[r][h] = max(Σ_d rg[r][d] · Wv[h][d], 0). -/
theorem value_apply (x1 : Vec Ideal S1x4096x512 .f32) (x4 : Vec Ideal S512x512 .f32) (r : Fin 4096) (h : Fin 512) :
    maximumf (k0_pay7 (F := Ideal) x1 x4) (k0_pay8 (F := Ideal)) (ix2 r h)
      = value (fun r d => x1 (ix3 0 r d)) (mat x4) r h := by
  refine (maximumf_apply _ _ _).trans ?_
  unfold value
  refine congrArg₂ max ?_ ?_
  · unfold k0_pay7
    refine (mm_v_apply _ _ r h).trans (Finset.sum_congr rfl fun d _ => ?_)
    exact congrArg₂ (· * ·) (regions_apply x1 r d) rfl
  · show Ideal.ofBits .f32 0x00000000#32 = 0
    exact Ideal.ofBits_zero_f32

/-- The body's score row is the specification's, lane by lane. -/
theorem scoreVec_apply (x1 : Vec Ideal S1x4096x512 .f32) (x2 : Vec Ideal S512x512 .f32) (x0 : Vec Ideal S1x1x512 .f32)
    (x3 : Vec Ideal S512x512 .f32) (s : Elt Ideal .i32) (r : Fin 4096) :
    k0_pay5 (F := Ideal) x1 x2 x0 x3 s (ix2 (0 : Fin 1) r)
      = scoreRowK (fun k => x0 (ix3 0 0 k)) (fun r d => x1 (ix3 0 r d)) (mat x2) (mat x3) s r := by
  unfold k0_pay5
  refine (softmax_apply _ r).trans ?_
  unfold scoreRowK
  refine congrArg (fun l => scoreK l r) (funext fun k => ?_)
  refine (logit_apply _ s k).trans ?_
  unfold logitK
  refine congrArg (fun x => Scalar.select (lane s k) (Ideal.div x scale) ⊥) ?_
  refine (dist_apply _ x1 k).trans ?_
  unfold distK
  refine Finset.sum_congr rfl fun d _ => ?_
  refine congrArg (· * x1 (ix3 0 k d)) ?_
  refine (through_apply _ x3 d).trans ?_
  refine Finset.sum_congr rfl fun h _ => ?_
  exact congrArg (· * mat x3 h d) (query_apply x2 x0 h)

theorem score_pay (x0 : Vec Ideal S1x1x512 .f32) (x1 : Vec Ideal S1x4096x512 .f32) (x2 x3 : Vec Ideal S512x512 .f32)
    (s : Elt Ideal .i32) (r : Fin 4096) :
    k0_pay2 (F := Ideal) (k0_pay5 x1 x2 x0 x3 s) (ix3 0 0 r)
      = scoreRowK (fun k => x0 (ix3 0 0 k)) (fun r d => x1 (ix3 0 r d)) (mat x2) (mat x3) s r := by
  unfold k0_pay2
  exact (shapeCast_ab_1ab_apply _ shapeCasts_S1x4096_S1x1x4096 0 0 r).trans (scoreVec_apply x1 x2 x0 x3 s r)

theorem out_pay (x0 : Vec Ideal S1x1x512 .f32) (x1 : Vec Ideal S1x4096x512 .f32) (x2 x3 x4 : Vec Ideal S512x512 .f32)
    (s : Elt Ideal .i32) (h : Fin 512) :
    k0_pay1 (F := Ideal) (k0_pay4 x2 x0) (k0_pay6 x1 x2 x0 x3 s) (k0_pay7 x1 x4) k0_pay8 (ix3 0 0 h)
      = outRowK (fun k => x0 (ix3 0 0 k)) (fun r d => x1 (ix3 0 r d)) (mat x2) (mat x3) (mat x4) s h := by
  unfold k0_pay1
  refine (shapeCast_ab_1ab_apply _ shapeCasts_S1x512_S1x1x512 0 0 h).trans ?_
  refine (addf_apply _ _ _).trans ?_
  unfold outRowK attend
  refine congrArg₂ (· + ·) ?_ (query_apply x2 x0 h)
  refine (mm_o_apply _ _ 0 h).trans (Finset.sum_congr rfl fun r _ => ?_)
  exact congrArg₂ (· * ·) (scoreVec_apply x1 x2 x0 x3 s r) (value_apply x1 x4 r h)

end Cert.KernelIdeal.Payload

end
-- ==== Proof.KerValue.lean ====
/-
  What the kernel's run leaves in its two result arrays.

  At grid point t the body holds row t's query block, row t's regions, the three weights and row t's length word, so
  what it stores is row t of the specification's kernel-order results. Point t writes block (t, 0, 0) of each output
  array back; the 32 blocks tile the arrays; and the two lines after the region only re-lay the arrays
  [32,1,512] → [32,512] and [32,1,4096] → [32,4096].
-/
import proofs.«431180_j86492051406968_3_alg».proof.Proof.KerPieces
import proofs.«431180_j86492051406968_3_alg».proof.Proof.KerPayload

set_option maxRecDepth 16384

noncomputable section

namespace Cert.KernelIdeal.KerValue

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx Cert.RowAttn

variable (m : (ℓ : Loc nD τ sig) → Buf (Elt Ideal) ℓ) (ρ : Dev nD → PrngReg)

/-- Grid point t works on batch row t. -/
abbrev rowOf (hO : Ok m) (t : Fin (cfgM m hO).N) : Fin 32 := ⟨t.val, lt_of_lt_of_eq t.isLt N_0⟩

/-- The blocks the body holds at point t, at their literal types. -/
abbrev qblk (hO : Ok m) (c : Dev nD) (t : Fin (cfgM m hO).N) : Vec Ideal S1x1x512 .f32 := iblk m hO c 0 t
abbrev rblk (hO : Ok m) (c : Dev nD) (t : Fin (cfgM m hO).N) : Vec Ideal S1x4096x512 .f32 := iblk m hO c 1 t
abbrev wqblk (hO : Ok m) (c : Dev nD) (t : Fin (cfgM m hO).N) : Vec Ideal S512x512 .f32 := iblk m hO c 2 t
abbrev wkblk (hO : Ok m) (c : Dev nD) (t : Fin (cfgM m hO).N) : Vec Ideal S512x512 .f32 := iblk m hO c 3 t
abbrev wvblk (hO : Ok m) (c : Dev nD) (t : Fin (cfgM m hO).N) : Vec Ideal S512x512 .f32 := iblk m hO c 4 t

/-- The query block at point t is row t of the query input. -/
theorem qblk_apply (hO : Ok m) (c : Dev nD) (t : Fin (cfgM m hO).N) (k : Fin 512) :
    qblk m hO c t (ix3 0 0 k) = m ((c : Thread nD τ).loc main_arg0) (ix2 (rowOf m hO t) k) := by
  obtain ⟨⟨h0, h1, h2⟩, -⟩ := idx_facts t
  have e : (((cfgM m hO).win 0).blk t).view.emb (ix3 0 0 k) = (ix3 (rowOf m hO t) 0 k : S32x1x512.Idx) := by
    funext a; apply Fin.ext
    match a with
    | ⟨0, _⟩ => show cc0_transform_0 (grid0.coords t) 0 * 1 + 1 * 0 = t.val; omega
    | ⟨1, _⟩ => show cc0_transform_0 (grid0.coords t) 1 * 1 + 1 * 0 = 0; omega
    | ⟨2, _⟩ => show cc0_transform_0 (grid0.coords t) 2 * 512 + 1 * k.val = k.val; omega
  show V m c main_v0 ((((cfgM m hO).win 0).blk t).view.emb (ix3 0 0 k)) = _
  rw [e]
  refine (congrFun (V_v0 m c) _).trans ?_
  exact shapeCast_apply _ shapeCasts_S32x512_S32x1x512 _ (ix2 (rowOf m hO t) k)
    (by rewrite [Shape.rowMajor_val_two, Shape.rowMajor_val_three]; show t.val * 512 + k.val = (t.val * 1 + 0) * 512 + k.val; omega)

/-- The regions' block at point t is row t of the regions. -/
theorem rblk_apply (hO : Ok m) (c : Dev nD) (t : Fin (cfgM m hO).N) (r : Fin 4096) (d : Fin 512) :
    rblk m hO c t (ix3 0 r d) = m ((c : Thread nD τ).loc main_arg1) (ix3 (rowOf m hO t) r d) := by
  obtain ⟨-, ⟨h0, h1, h2⟩, -⟩ := idx_facts t
  have e : (((cfgM m hO).win 1).blk t).view.emb (ix3 0 r d) = (ix3 (rowOf m hO t) r d : S32x4096x512.Idx) := by
    funext a; apply Fin.ext
    match a with
    | ⟨0, _⟩ => show cc0_transform_1 (grid0.coords t) 0 * 1 + 1 * 0 = t.val; omega
    | ⟨1, _⟩ => show cc0_transform_1 (grid0.coords t) 1 * 4096 + 1 * r.val = r.val; omega
    | ⟨2, _⟩ => show cc0_transform_1 (grid0.coords t) 2 * 512 + 1 * d.val = d.val; omega
  show V m c main_arg1 ((((cfgM m hO).win 1).blk t).view.emb (ix3 0 r d)) = _
  rw [e]
  exact congrFun (V_main_arg1 m c) _

/-- Each weight's block, at every point, is the whole weight. -/
theorem wqblk_apply (hO : Ok m) (c : Dev nD) (t : Fin (cfgM m hO).N) (h k : Fin 512) :
    wqblk m hO c t (ix2 h k) = m ((c : Thread nD τ).loc main_arg2) (ix2 h k) := by
  obtain ⟨-, -, ⟨h0, h1⟩, -⟩ := idx_facts t
  have e : (((cfgM m hO).win 2).blk t).view.emb (ix2 h k) = (ix2 h k : S512x512.Idx) := by
    funext a; apply Fin.ext
    match a with
    | ⟨0, _⟩ => show cc0_transform_2 (grid0.coords t) 0 * 512 + 1 * h.val = h.val; omega
    | ⟨1, _⟩ => show cc0_transform_2 (grid0.coords t) 1 * 512 + 1 * k.val = k.val; omega
  show V m c main_arg2 ((((cfgM m hO).win 2).blk t).view.emb (ix2 h k)) = _
  rw [e]
  exact congrFun (V_main_arg2 m c) _

theorem wkblk_apply (hO : Ok m) (c : Dev nD) (t : Fin (cfgM m hO).N) (h k : Fin 512) :
    wkblk m hO c t (ix2 h k) = m ((c : Thread nD τ).loc main_arg3) (ix2 h k) := by
  obtain ⟨-, -, -, ⟨h0, h1⟩, -⟩ := idx_facts t
  have e : (((cfgM m hO).win 3).blk t).view.emb (ix2 h k) = (ix2 h k : S512x512.Idx) := by
    funext a; apply Fin.ext
    match a with
    | ⟨0, _⟩ => show cc0_transform_3 (grid0.coords t) 0 * 512 + 1 * h.val = h.val; omega
    | ⟨1, _⟩ => show cc0_transform_3 (grid0.coords t) 1 * 512 + 1 * k.val = k.val; omega
  show V m c main_arg3 ((((cfgM m hO).win 3).blk t).view.emb (ix2 h k)) = _
  rw [e]
  exact congrFun (V_main_arg3 m c) _

theorem wvblk_apply (hO : Ok m) (c : Dev nD) (t : Fin (cfgM m hO).N) (h k : Fin 512) :
    wvblk m hO c t (ix2 h k) = m ((c : Thread nD τ).loc main_arg4) (ix2 h k) := by
  obtain ⟨-, -, -, -, ⟨h0, h1⟩, -⟩ := idx_facts t
  have e : (((cfgM m hO).win 4).blk t).view.emb (ix2 h k) = (ix2 h k : S512x512.Idx) := by
    funext a; apply Fin.ext
    match a with
    | ⟨0, _⟩ => show cc0_transform_4 (grid0.coords t) 0 * 512 + 1 * h.val = h.val; omega
    | ⟨1, _⟩ => show cc0_transform_4 (grid0.coords t) 1 * 512 + 1 * k.val = k.val; omega
  show V m c main_arg4 ((((cfgM m hO).win 4).blk t).view.emb (ix2 h k)) = _
  rw [e]
  exact congrFun (V_main_arg4 m c) _

/-- The word the body loads at grid point t is the table's entry t. -/
theorem lenWord_apply (c : Dev nD) (t : Fin grid0.N) (f : TbBuf0 (F := Ideal) c tbM0_0) :
    lenWord (F := Ideal) c (grid0.coords t) f = f (ix1 ⟨t.val, lt_of_lt_of_eq t.isLt N_0⟩) := by
  obtain ⟨-, -, -, -, -, -, -, h0⟩ := idx_facts t
  unfold lenWord
  rw [View.readAt_apply, View.read_apply]
  show f _ = f _
  refine congrArg f (funext fun a => Fin.ext ?_)
  match a with
  | ⟨0, _⟩ =>
    show _ = t.val
    rw [← h0]
    first
      | rfl
      | (show k0_off1 (grid0.coords t) 0 + 1 * 0 = _; omega)
      | (show 0 + (k0_off1 (grid0.coords t) 0 + 1 * 0) = _; omega)

/-- The length word the body loads at point t is entry t of the length input. -/
theorem lenWord_eq (hO : Ok m) (c : Dev nD) (t : Fin (cfgM m hO).N) :
    lenWord (F := Ideal) c (grid0.coords t) (tbl m 0) = m ((c : Thread nD τ).loc main_arg5) (ix1 (rowOf m hO t)) := by
  obtain rfl : c = 0 := Subsingleton.elim _ _
  exact (lenWord_apply 0 t (tbl m 0)).trans (congrFun (V_main_arg5 m 0) _)

/-- At point t the stored scores are row t of the kernel-order scores. -/
theorem blk6_apply (hO : Ok m) (c : Dev nD) (t : Fin (cfgM m hO).N) (r : Fin 4096) :
    k0_pay2 (F := Ideal) (k0_pay5 (rblk m hO c t) (wqblk m hO c t) (qblk m hO c t) (wkblk m hO c t)
        (lenWord c (grid0.coords t) (tbl m 0))) (ix3 0 0 r)
      = G6 m c (ix3 (rowOf m hO t) 0 r) := by
  rw [Cert.KernelIdeal.Payload.score_pay]
  have e0 : (fun k => qblk m hO c t (ix3 0 0 k)) = seqRow (m ((c : Thread nD τ).loc main_arg0)) (rowOf m hO t) :=
    funext fun k => qblk_apply m hO c t k
  have e1 : (fun r d => rblk m hO c t (ix3 0 r d)) = regRow (m ((c : Thread nD τ).loc main_arg1)) (rowOf m hO t) :=
    funext fun r => funext fun d => rblk_apply m hO c t r d
  have e2 : mat (wqblk m hO c t) = mat (m ((c : Thread nD τ).loc main_arg2)) := funext fun h => funext fun k => wqblk_apply m hO c t h k
  have e3 : mat (wkblk m hO c t) = mat (m ((c : Thread nD τ).loc main_arg3)) := funext fun h => funext fun k => wkblk_apply m hO c t h k
  rw [e0, e1, e2, e3, lenWord_eq m hO c t]
  rfl

/-- At point t the stored results are row t of the kernel-order results. -/
theorem blk5_apply (hO : Ok m) (c : Dev nD) (t : Fin (cfgM m hO).N) (h : Fin 512) :
    k0_pay1 (F := Ideal) (k0_pay4 (wqblk m hO c t) (qblk m hO c t))
        (k0_pay6 (rblk m hO c t) (wqblk m hO c t) (qblk m hO c t) (wkblk m hO c t) (lenWord c (grid0.coords t) (tbl m 0)))
        (k0_pay7 (rblk m hO c t) (wvblk m hO c t)) k0_pay8 (ix3 0 0 h)
      = G5 m c (ix3 (rowOf m hO t) 0 h) := by
  rw [Cert.KernelIdeal.Payload.out_pay]
  have e0 : (fun k => qblk m hO c t (ix3 0 0 k)) = seqRow (m ((c : Thread nD τ).loc main_arg0)) (rowOf m hO t) :=
    funext fun k => qblk_apply m hO c t k
  have e1 : (fun r d => rblk m hO c t (ix3 0 r d)) = regRow (m ((c : Thread nD τ).loc main_arg1)) (rowOf m hO t) :=
    funext fun r => funext fun d => rblk_apply m hO c t r d
  have e2 : mat (wqblk m hO c t) = mat (m ((c : Thread nD τ).loc main_arg2)) := funext fun h => funext fun k => wqblk_apply m hO c t h k
  have e3 : mat (wkblk m hO c t) = mat (m ((c : Thread nD τ).loc main_arg3)) := funext fun h => funext fun k => wkblk_apply m hO c t h k
  have e4 : mat (wvblk m hO c t) = mat (m ((c : Thread nD τ).loc main_arg4)) := funext fun h => funext fun k => wvblk_apply m hO c t h k
  rw [e0, e1, e2, e3, e4, lenWord_eq m hO c t]
  rfl

/-- What point t writes back into the score array is block t of `G6`. -/
theorem flushed6_eq (hO : Ok m) (c : Dev nD) (t : Fin (cfgM m hO).N) :
    (dats m hO 0 c).flushed 6 t = (((cfgM m hO).win 6).blk t).view.read (Elt Ideal) (G6 m c) := by
  show ((cfgM m hO).win 6).cut (grid0.coords t) ((dats m hO 0 c).after 6 t) = _
  rw [after0_6]
  unfold outsAt0
  dsimp only
  have e := out6_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (qblk m hO c t) (rblk m hO c t) (wqblk m hO c t) (wkblk m hO c t) (wvblk m hO c t) (tbl m 0)
  rw [e]
  refine funext fun (y : S1x1x4096.Idx) => ?_
  obtain ⟨r, rfl⟩ : ∃ r : Fin 4096, y = (ix3 0 0 r : S1x1x4096.Idx) := ⟨y 2, funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)⟩
  refine (blk6_apply m hO c t r).trans ?_
  show G6 m c (ix3 (rowOf m hO t) 0 r) = G6 m c ((((cfgM m hO).win 6).blk t).view.emb (ix3 0 0 r))
  congr 1
  obtain ⟨-, -, -, -, -, -, ⟨h0, h1, h2⟩, -⟩ := idx_facts t
  funext a; apply Fin.ext
  match a with
  | ⟨0, _⟩ => show t.val = cc0_transform_6 (grid0.coords t) 0 * 1 + 1 * 0; omega
  | ⟨1, _⟩ => show 0 = cc0_transform_6 (grid0.coords t) 1 * 1 + 1 * 0; omega
  | ⟨2, _⟩ => show r.val = cc0_transform_6 (grid0.coords t) 2 * 4096 + 1 * r.val; omega

/-- What point t writes back into the result array is block t of `G5`. -/
theorem flushed5_eq (hO : Ok m) (c : Dev nD) (t : Fin (cfgM m hO).N) :
    (dats m hO 0 c).flushed 5 t = (((cfgM m hO).win 5).blk t).view.read (Elt Ideal) (G5 m c) := by
  show ((cfgM m hO).win 5).cut (grid0.coords t) ((dats m hO 0 c).after 5 t) = _
  rw [after0_5]
  unfold outsAt0
  dsimp only
  have e := out5_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (qblk m hO c t) (rblk m hO c t) (wqblk m hO c t) (wkblk m hO c t) (wvblk m hO c t) (tbl m 0)
  rw [e]
  refine funext fun (y : S1x1x512.Idx) => ?_
  obtain ⟨r, rfl⟩ : ∃ r : Fin 512, y = (ix3 0 0 r : S1x1x512.Idx) := ⟨y 2, funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)⟩
  refine (blk5_apply m hO c t r).trans ?_
  show G5 m c (ix3 (rowOf m hO t) 0 r) = G5 m c ((((cfgM m hO).win 5).blk t).view.emb (ix3 0 0 r))
  congr 1
  obtain ⟨-, -, -, -, -, ⟨h0, h1, h2⟩, -, -⟩ := idx_facts t
  funext a; apply Fin.ext
  match a with
  | ⟨0, _⟩ => show t.val = cc0_transform_5 (grid0.coords t) 0 * 1 + 1 * 0; omega
  | ⟨1, _⟩ => show 0 = cc0_transform_5 (grid0.coords t) 1 * 1 + 1 * 0; omega
  | ⟨2, _⟩ => show r.val = cc0_transform_5 (grid0.coords t) 2 * 512 + 1 * r.val; omega

/-- Entry (0, 0, j) of point t's block of output 6 sits at (t, 0, j) of the array. -/
theorem emb6 (hO : Ok m) (t : Fin (cfgM m hO).N) (r : Fin 4096) :
    (((cfgM m hO).win 6).blk t).view.emb (ix3 0 0 r : S1x1x4096.Idx) = (ix3 (rowOf m hO t) 0 r : S32x1x4096.Idx) := by
  obtain ⟨-, -, -, -, -, -, ⟨h0, h1, h2⟩, -⟩ := idx_facts t
  funext a; apply Fin.ext
  match a with
  | ⟨0, _⟩ => show cc0_transform_6 (grid0.coords t) 0 * 1 + 1 * 0 = t.val; omega
  | ⟨1, _⟩ => show cc0_transform_6 (grid0.coords t) 1 * 1 + 1 * 0 = 0; omega
  | ⟨2, _⟩ => show cc0_transform_6 (grid0.coords t) 2 * 4096 + 1 * r.val = r.val; omega

/-- Entry (0, 0, j) of point t's block of output 5 sits at (t, 0, j) of the array. -/
theorem emb5 (hO : Ok m) (t : Fin (cfgM m hO).N) (r : Fin 512) :
    (((cfgM m hO).win 5).blk t).view.emb (ix3 0 0 r : S1x1x512.Idx) = (ix3 (rowOf m hO t) 0 r : S32x1x512.Idx) := by
  obtain ⟨-, -, -, -, -, ⟨h0, h1, h2⟩, -, -⟩ := idx_facts t
  funext a; apply Fin.ext
  match a with
  | ⟨0, _⟩ => show cc0_transform_5 (grid0.coords t) 0 * 1 + 1 * 0 = t.val; omega
  | ⟨1, _⟩ => show cc0_transform_5 (grid0.coords t) 1 * 1 + 1 * 0 = 0; omega
  | ⟨2, _⟩ => show cc0_transform_5 (grid0.coords t) 2 * 512 + 1 * r.val = r.val; omega

/-- The 32 blocks tile the array of output 6, so it ends holding `G6`. -/
theorem final6 (hO : Ok m) (c : Dev nD) : (dats m hO 0 c).arrAt 6 (cfgM m hO).N = G6 m c :=
  (dats m hO 0 c).arrAt_eq_of_cover 6 (G6 m c) (fun t _ => flushed6_eq m hO c t) fun (i : S32x1x4096.Idx) => by
    have hi0 : (i 0).val < 32 := (i 0).isLt
    have hN : (i 0).val < (cfgM m hO).N := lt_of_lt_of_eq hi0 N_0.symm
    refine ⟨⟨(i 0).val, hN⟩, flush0_6 (adm m hO) _, ?_⟩
    have he : (((cfgM m hO).win 6).blk ⟨(i 0).val, hN⟩).view.emb (ix3 0 0 (⟨(i 2).val, (i 2).isLt⟩ : Fin 4096) : S1x1x4096.Idx) = i := by
      refine (emb6 m hO ⟨(i 0).val, hN⟩ ⟨(i 2).val, (i 2).isLt⟩).trans ?_
      funext a
      match a with
      | ⟨0, _⟩ => rfl
      | ⟨1, _⟩ => exact Fin.ext (by have h1 : (i 1).val < 1 := (i 1).isLt; show 0 = (i 1).val; omega)
      | ⟨2, _⟩ => rfl
    exact Eq.subst (motive := fun j => j ∈ (((cfgM m hO).win 6).blk ⟨(i 0).val, hN⟩).view.set) he
      ((((cfgM m hO).win 6).blk ⟨(i 0).val, hN⟩).view.emb_mem_set (ix3 0 0 (⟨(i 2).val, (i 2).isLt⟩ : Fin 4096) : S1x1x4096.Idx))

/-- The 32 blocks tile the array of output 5, so it ends holding `G5`. -/
theorem final5 (hO : Ok m) (c : Dev nD) : (dats m hO 0 c).arrAt 5 (cfgM m hO).N = G5 m c :=
  (dats m hO 0 c).arrAt_eq_of_cover 5 (G5 m c) (fun t _ => flushed5_eq m hO c t) fun (i : S32x1x512.Idx) => by
    have hi0 : (i 0).val < 32 := (i 0).isLt
    have hN : (i 0).val < (cfgM m hO).N := lt_of_lt_of_eq hi0 N_0.symm
    refine ⟨⟨(i 0).val, hN⟩, flush0_5 (adm m hO) _, ?_⟩
    have he : (((cfgM m hO).win 5).blk ⟨(i 0).val, hN⟩).view.emb (ix3 0 0 (⟨(i 2).val, (i 2).isLt⟩ : Fin 512) : S1x1x512.Idx) = i := by
      refine (emb5 m hO ⟨(i 0).val, hN⟩ ⟨(i 2).val, (i 2).isLt⟩).trans ?_
      funext a
      match a with
      | ⟨0, _⟩ => rfl
      | ⟨1, _⟩ => exact Fin.ext (by have h1 : (i 1).val < 1 := (i 1).isLt; show 0 = (i 1).val; omega)
      | ⟨2, _⟩ => rfl
    exact Eq.subst (motive := fun j => j ∈ (((cfgM m hO).win 5).blk ⟨(i 0).val, hN⟩).view.set) he
      ((((cfgM m hO).win 5).blk ⟨(i 0).val, hN⟩).view.emb_mem_set (ix3 0 0 (⟨(i 2).val, (i 2).isLt⟩ : Fin 512) : S1x1x512.Idx))

/-- A line after the region re-lays the array of output 5, [32,1,512], as [32,512]. -/
theorem tail_out (hO : Ok m) (c : Dev nD) :
    Pipeline.afterTail pcfgs (fun _ => adm m hO) (dats m hO) 0 (V0 m) [hostOps1] c main_v2
      = outArrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail
  show StableHlo.after hostOps1 _ (Proc.devRef .tc main_v2) = _
  after_results
  have hA : Pipeline.withArrays (Pipeline.pin pcfgs (fun _ => adm m hO) 0).spec c (V0 m c)
      (fun w => (dats m hO 0 c).arrAt w (Pipeline.pin pcfgs (fun _ => adm m hO) 0).N) (Proc.devRef .tc main_v1_0) = G5 m c :=
    (Pipeline.withArrays_arr spec0 winFacts0.arr_inj c _ _ 5).trans (final5 m hO c)
  funext i
  show shapeCast S32x512 (Pipeline.withArrays (Pipeline.pin pcfgs (fun _ => adm m hO) 0).spec c (V0 m c)
      (fun w => (dats m hO 0 c).arrAt w (Pipeline.pin pcfgs (fun _ => adm m hO) 0).N) (Proc.devRef .tc main_v1_0)) shapeCasts_S32x1x512_S32x512 i = _
  rw [hA]
  obtain ⟨b, j, rfl⟩ : ∃ (b : Fin 32) (j : Fin 512), i = ix2 b j := ⟨i 0, i 1, eq_ix2 i⟩
  refine (shapeCast_apply (G5 m c) shapeCasts_S32x1x512_S32x512 (ix2 b j) (ix3 b 0 j)
    (by rewrite [Shape.rowMajor_val_three, Shape.rowMajor_val_two]; show (b.val * 1 + 0) * 512 + j.val = b.val * 512 + j.val; omega)).trans ?_
  rfl

/-- A line after the region re-lays the array of output 6, [32,1,4096], as [32,4096]. -/
theorem tail_score (hO : Ok m) (c : Dev nD) :
    Pipeline.afterTail pcfgs (fun _ => adm m hO) (dats m hO) 0 (V0 m) [hostOps1] c main_v3
      = scoreArrK (m ((c : Thread nD τ).loc main_arg0)) (m ((c : Thread nD τ).loc main_arg1)) (m ((c : Thread nD τ).loc main_arg2)) (m ((c : Thread nD τ).loc main_arg3)) (m ((c : Thread nD τ).loc main_arg5)) := by
  unfold Pipeline.afterTail
  show StableHlo.after hostOps1 _ (Proc.devRef .tc main_v3) = _
  after_results
  have hA : Pipeline.withArrays (Pipeline.pin pcfgs (fun _ => adm m hO) 0).spec c (V0 m c)
      (fun w => (dats m hO 0 c).arrAt w (Pipeline.pin pcfgs (fun _ => adm m hO) 0).N) (Proc.devRef .tc main_v1_1) = G6 m c :=
    (Pipeline.withArrays_arr spec0 winFacts0.arr_inj c _ _ 6).trans (final6 m hO c)
  funext i
  show shapeCast S32x4096 (Pipeline.withArrays (Pipeline.pin pcfgs (fun _ => adm m hO) 0).spec c (V0 m c)
      (fun w => (dats m hO 0 c).arrAt w (Pipeline.pin pcfgs (fun _ => adm m hO) 0).N) (Proc.devRef .tc main_v1_1)) shapeCasts_S32x1x4096_S32x4096 i = _
  rw [hA]
  obtain ⟨b, j, rfl⟩ : ∃ (b : Fin 32) (j : Fin 4096), i = ix2 b j := ⟨i 0, i 1, eq_ix2 i⟩
  refine (shapeCast_apply (G6 m c) shapeCasts_S32x1x4096_S32x4096 (ix2 b j) (ix3 b 0 j)
    (by rewrite [Shape.rowMajor_val_three, Shape.rowMajor_val_two]; show (b.val * 1 + 0) * 4096 + j.val = b.val * 4096 + j.val; omega)).trans ?_
  rfl

/-- The kernel's run, read: its two results are the kernel-order arrays of the arguments, which it leaves unchanged. -/
theorem run (hO : Ok m) : θ_run defs (onTc (τ := τ) (main (F := Ideal))) ⟨m, fun _ => 0, ρ⟩ (fun r => ∀ c : Dev nD,
      r.2.mem ((c.tc : Thread nD τ).loc main_v2) = outArrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v3) = scoreArrK (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v2 (by decide : main_v2 ∈ Pipeline.restRefs sig spec0)).trans (tail_out m hO c),
      ((h c).2 main_v3 (by decide : main_v3 ∈ Pipeline.restRefs sig spec0)).trans (tail_score m hO c),
      ((h c).2 main_arg0 (by decide : main_arg0 ∈ Pipeline.restRefs sig spec0)).trans (W_main_arg0 m hO (dats m hO) c),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c))),
      ((h c).2 main_arg5 (by decide : main_arg5 ∈ Pipeline.restRefs sig spec0)).trans (W_main_arg5 m hO (dats m hO) c)⟩)
    (run_main m ρ hO)

end Cert.KernelIdeal.KerValue

end
-- ==== Proof.lean ====
/-
  Masked region attention: the Pallas kernel against its jnp reference, over the extended reals.

  Per batch row both programs compute result[h] = Σ_r score[r] · max(Σ_d rg[r][d]·Wv[h][d], 0) + q[h] with
  q = seq · Wqᵀ; they differ in how they reach `score` (Proof/Spec.lean). The kernel's sentinel for the lanes beyond the
  row's length is named −∞ (the one ledger entry, `preserves`); with it the kernel's single softmax over the filled logits
  and the reference's softmax · mask, renormalised, are the same function of real inputs (Proof/Algebra.lean), and the
  kernel's early contraction of the query with Wk is an exchange of two finite sums of reals.
  The kernel's results are read off its run block by block (Proof/KerPayload.lean, KerPieces.lean, KerValue.lean), the
  reference's off its run stage by stage (Proof/RefValue.lean), and the precondition makes the float inputs real
  (Proof/Finite.lean). The side condition of the kernel's prefetched table is empty: no index map reads it.
-/
import proofs.«431180_j86492051406968_3_alg».proof.Defs
import proofs.«431180_j86492051406968_3_alg».proof.Proof.Gen.Kernel
import proofs.«431180_j86492051406968_3_alg».proof.Proof.Gen.Kernel.Skeleton
import proofs.«431180_j86492051406968_3_alg».proof.Proof.Gen.Kernel.Launch
import proofs.«431180_j86492051406968_3_alg».proof.Proof.Gen.Kernel.Points
import proofs.«431180_j86492051406968_3_alg».proof.Proof.Gen.Kernel.Frame
import proofs.«431180_j86492051406968_3_alg».proof.Proof.Gen.KernelIdeal
import proofs.«431180_j86492051406968_3_alg».proof.Proof.Gen.KernelIdeal.Skeleton
import proofs.«431180_j86492051406968_3_alg».proof.Proof.Gen.KernelIdeal.Launch
import proofs.«431180_j86492051406968_3_alg».proof.Proof.Gen.KernelIdeal.Points
import proofs.«431180_j86492051406968_3_alg».proof.Proof.Gen.KernelIdeal.Frame
import proofs.«431180_j86492051406968_3_alg».proof.Proof.Gen.ReferenceIdeal
import proofs.«431180_j86492051406968_3_alg».proof.Proof.Gen.ReferenceIdeal.Run
import proofs.«431180_j86492051406968_3_alg».proof.Proof.Gen.ReferenceIdeal.Read
import proofs.«431180_j86492051406968_3_alg».proof.Proof.Gen.Pre_finite_inputs
import proofs.«431180_j86492051406968_3_alg».proof.Proof.Algebra
import proofs.«431180_j86492051406968_3_alg».proof.Proof.Finite
import proofs.«431180_j86492051406968_3_alg».proof.Proof.RefValue
import proofs.«431180_j86492051406968_3_alg».proof.Proof.KerValue
import Idealize.ShloMosaic.Adequacy
import Idealize.ShloMosaic.Init

noncomputable section

namespace Cert.Proof

open Idealize.ShloMosaic Idealize.SL.Sem Cert.RowAttn

/-- With real float inputs the kernel-order score array is the reference-order one, row by row. -/
theorem scoreArr_eq (x0 : (⟨2, ![32, 512]⟩ : Shape).Idx → EReal) (x1 : (⟨3, ![32, 4096, 512]⟩ : Shape).Idx → EReal)
    (x2 x3 : (⟨2, ![512, 512]⟩ : Shape).Idx → EReal) (x5 : (⟨1, ![32]⟩ : Shape).Idx → BitVec 32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    scoreArrK x0 x1 x2 x3 x5 = scoreArrR x0 x1 x2 x3 x5 :=
  funext fun i => congrFun (scoreRow_eq (seqRow x0 (i 0)) (regRow x1 (i 0)) (mat x2) (mat x3) (lenOf x5 (i 0))
    (fun _ => h0 _) (fun _ _ => h1 _) (fun _ _ => h2 _) (fun _ _ => h3 _)) (i 1)

/-- Likewise the result arrays. -/
theorem outArr_eq (x0 : (⟨2, ![32, 512]⟩ : Shape).Idx → EReal) (x1 : (⟨3, ![32, 4096, 512]⟩ : Shape).Idx → EReal)
    (x2 x3 x4 : (⟨2, ![512, 512]⟩ : Shape).Idx → EReal) (x5 : (⟨1, ![32]⟩ : Shape).Idx → BitVec 32)
    (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    outArrK x0 x1 x2 x3 x4 x5 = outArrR x0 x1 x2 x3 x4 x5 :=
  funext fun i => congrFun (outRow_eq (seqRow x0 (i 0)) (regRow x1 (i 0)) (mat x2) (mat x3) (mat x4) (lenOf x5 (i 0))
    (fun _ => h0 _) (fun _ _ => h1 _) (fun _ _ => h2 _) (fun _ _ => h3 _)) (i 1)

/-- The word-level kernel runs and keeps its arguments: the table's side condition is empty. -/
theorem frame_k : Cert.frame_Kernel := fun m ρ _ => Cert.Kernel.Gen.frame m ρ trivial

/-- So does the idealized kernel. -/
theorem frame_ki : Cert.frame_KernelIdeal := fun m ρ _ => Cert.KernelIdeal.Gen.frame m ρ trivial

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one ledger entry: the table gives the sentinel's name the value −∞. -/
theorem preserves : Cert.preserves_Kernel_KernelIdeal :=
  IdealRules.named_const.statement Cert.KernelIdeal.κ "neg_big" .f32 0xFF333332#32 ⊥ rfl

/-- Both programs end with the kernel-order arrays of the arguments: the kernel by its run read block by block; the
    reference by its run read stage by stage, its arguments the kernel's, and the two orders equal on real inputs. -/
theorem algebraic : Cert.algebraic_KernelIdeal_ReferenceIdeal := by
  intro m ρ m' ρ' hpre hagree
  refine ⟨fun c => outArrK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => scoreArrK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)),
    Cert.KernelIdeal.KerValue.run m ρ trivial, ?_⟩
  refine (θ_run Cert.ReferenceIdeal.defs _ _).mono (fun _ h c => ?_) (Cert.ReferenceIdeal.Value.run (F := Ideal) m' ρ')
  obtain ⟨r0, r1, r2, r3, -⟩ := Cert.Pre_finite_inputs.Finite.real_of_pre _ _ _ _ _ _ (hpre c)
  obtain ⟨g0, g1, g2, g3, g4, g5⟩ := hagree c
  refine ⟨?_, ?_, (h c).2.2⟩
  · rw [(h c).1, Cert.ReferenceIdeal.Read.val_main_v34_eq, Cert.ReferenceIdeal.RefValue.out_eq, g0, g1, g2, g3, g4, g5]
    exact (outArr_eq _ _ _ _ _ _ r0 r1 r2 r3).symm
  · rw [(h c).2.1, Cert.ReferenceIdeal.Read.val_main_v35_eq, Cert.ReferenceIdeal.RefValue.score_eq, g0, g1, g2, g3, g5]
    exact (scoreArr_eq _ _ _ _ _ r0 r1 r2 r3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
